-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10240 : Shape := ⟨2, ![8192, 10240]⟩
abbrev S1000x10240 : Shape := ⟨2, ![1000, 10240]⟩
abbrev S_ : Shape := ⟨0, ![]⟩

class Facts : Prop where
  bcast_S_S8192x10240 : S_.BroadcastsInDim S8192x10240 (![] : Fin 0 → Fin S8192x10240.rank)
  reducesTo_S8192x10240_S_d0_1 : S8192x10240.ReducesTo [0, 1] S_
  h_S_ : 0 < S_.numel
  bcast_S_S1000x10240 : S_.BroadcastsInDim S1000x10240 (![] : Fin 0 → Fin S1000x10240.rank)
  reducesTo_S1000x10240_S_d0_1 : S1000x10240.ReducesTo [0, 1] S_

variable [Facts]

def fn {F : FTy → Type} [FloatOps F] (main_arg0 : FVec F S8192x10240 .f32) (main_arg1 : FVec F S1000x10240 .f32) : IVec S_ 1 :=
  let main_v0 : FVec F S8192x10240 .f32 := Host.absf main_arg0
  let main_cst : FVec F S_ .f32 := constant S_ .f32 0x7F800000#32
  let main_v1 : FVec F S8192x10240 .f32 := broadcastInDim S8192x10240 ![] bcast_S_S8192x10240 main_cst
  let main_v2 : IVec S8192x10240 1 := cmpf .olt main_v0 main_v1
  let main_c : IVec S_ 1 := constantI S_ 1 1#1
  let main_v3 : IVec S_ 1 := (fun x v => Host.reduce IntOp.andi x v reducesTo_S8192x10240_S_d0_1 h_S_) main_v2 main_c
  let main_v4 : FVec F S1000x10240 .f32 := Host.absf main_arg1
  let main_cst_0 : FVec F S_ .f32 := constant S_ .f32 0x7F800000#32
  let main_v5 : FVec F S1000x10240 .f32 := broadcastInDim S1000x10240 ![] bcast_S_S1000x10240 main_cst_0
  let main_v6 : IVec S1000x10240 1 := cmpf .olt main_v4 main_v5
  let main_c_1 : IVec S_ 1 := constantI S_ 1 1#1
  let main_v7 : IVec S_ 1 := (fun x v => Host.reduce IntOp.andi x v reducesTo_S1000x10240_S_d0_1 h_S_) main_v6 main_c_1
  let main_v8 : IVec S_ 1 := andi main_v3 main_v7
  main_v8
-- ==== Kernel.lean ====
abbrev S8192x10240 : Shape := ⟨2, ![8192, 10240]⟩
abbrev S1000x10240 : Shape := ⟨2, ![1000, 10240]⟩
abbrev S512x2048 : Shape := ⟨2, ![512, 2048]⟩
abbrev S1000x2048 : Shape := ⟨2, ![1000, 2048]⟩
abbrev S8192x1000 : Shape := ⟨2, ![8192, 1000]⟩
abbrev S1024x2048 : Shape := ⟨2, ![1024, 2048]⟩
abbrev S1024x1000 : Shape := ⟨2, ![1024, 1000]⟩

abbrev nBuf : Space → Nat
  | .hbm => 5
  | .vmem => 15
  | .smem => 0
  | _ => 0

abbrev bufTy : (tb : Table) → Fin (tcTables nBuf tb) → BufTy
  | .hbm, ⟨0, _⟩ => ⟨S8192x10240, .f32⟩
  | .hbm, ⟨1, _⟩ => ⟨S1000x10240, .f32⟩
  | .hbm, ⟨2, _⟩ => ⟨S8192x10240, .bf16⟩
  | .hbm, ⟨3, _⟩ => ⟨S1000x10240, .bf16⟩
  | .hbm, ⟨4, _⟩ => ⟨S8192x1000, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1000x2048, .f32⟩
  | .local _ .vmem, ⟨5, _⟩ => ⟨S1000x2048, .f32⟩
  | .local _ .vmem, ⟨6, _⟩ => ⟨S1000x2048, .bf16⟩
  | .local _ .vmem, ⟨7, _⟩ => ⟨S1000x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1000x2048, .bf16⟩
  | .local _ .vmem, ⟨11, _⟩ => ⟨S1000x2048, .bf16⟩
  | .local _ .vmem, ⟨12, _⟩ => ⟨S1024x1000, .f32⟩
  | .local _ .vmem, ⟨13, _⟩ => ⟨S1024x1000, .f32⟩
  | .local _ .vmem, ⟨14, _⟩ => ⟨S1024x1000, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![1, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1000x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![8, 5], ![false, false]⟩

def k2_cond2 (i : grid2.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1000x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S1000x2048_S1000x2048_0_0 : ∀ a, (![0, 0] : Fin 2 → Nat) a + S1000x2048.size a ≤ S1000x2048.size a
  h_S1000x2048 : 0 < S1000x2048.numel
  packedbf16_S1000x2048_S1000x2048_0_0 : (Rect.unit (s := S1000x2048) ![0, 0] S1000x2048.size inb_S1000x2048_S1000x2048_0_0).PackedRows (EltTy.packing .bf16)
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1000x2048_S1000x2048 : S1000x2048.ShapeCasts S1000x2048
  dot_S1024x2048_S1000x2048_S1024x1000_1_1_0_0_n_n_wf : DotDims.WF S1024x2048 S1000x2048 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x10240.size a
  hwx0_0 : ∀ i : grid0.Coords, EltTy.bits .f32 = 32 ∨ (Rect.block (s := S8192x10240) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x10240.size a
  hwx0_1 : ∀ i : grid0.Coords, EltTy.bits .bf16 = 32 ∨ (Rect.block (s := S8192x10240) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x2048.size a ≤ S1000x10240.size a
  hwx1_0 : ∀ i : grid1.Coords, EltTy.bits .f32 = 32 ∨ (Rect.block (s := S1000x10240) S1000x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x2048.size a ≤ S1000x10240.size a
  hwx1_1 : ∀ i : grid1.Coords, EltTy.bits .bf16 = 32 ∨ (Rect.block (s := S1000x10240) S1000x2048.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x10240.size a
  hwx2_0 : ∀ i : grid2.Coords, EltTy.bits .bf16 = 32 ∨ (Rect.block (s := S8192x10240) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x2048.size a ≤ S1000x10240.size a
  hwx2_1 : ∀ i : grid2.Coords, EltTy.bits .bf16 = 32 ∨ (Rect.block (s := S1000x10240) S1000x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1000.size a ≤ S8192x1000.size a
  hwx2_2 : ∀ i : grid2.Coords, EltTy.bits .f32 = 32 ∨ (Rect.block (s := S8192x1000) S1024x1000.size (cc2_transform_2 i) (hinb2_2 i)).WholeWords (EltTy.packing .f32)

variable [Facts₀]

def dot_S1024x2048_S1000x2048_S1024x1000_1_1_0_0_n_n : DotDims S1024x2048 S1000x2048 S1024x1000 where
  lhsContracting := [1]
  rhsContracting := [1]
  lhsNonContracting := [0]
  rhsNonContracting := [0]
  lhsBatch := []
  rhsBatch := []
  wf := dot_S1024x2048_S1000x2048_S1024x1000_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1000x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1000x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1000x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x10240 : Shape := ⟨2, ![8192, 10240]⟩
abbrev S1000x10240 : Shape := ⟨2, ![1000, 10240]⟩
abbrev S_ : Shape := ⟨0, ![]⟩
abbrev S8192x1000 : Shape := ⟨2, ![8192, 1000]⟩

abbrev nBuf : Space → Nat
  | .hbm => 27
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S1000x10240, .f32⟩
  | .hbm, ⟨2, _⟩ => ⟨S_, .f32⟩
  | .hbm, ⟨3, _⟩ => ⟨S8192x10240, .f32⟩
  | .hbm, ⟨4, _⟩ => ⟨S8192x10240, .i1⟩
  | .hbm, ⟨5, _⟩ => ⟨S_, .f32⟩
  | .hbm, ⟨6, _⟩ => ⟨S_, .f32⟩
  | .hbm, ⟨7, _⟩ => ⟨S8192x10240, .f32⟩
  | .hbm, ⟨8, _⟩ => ⟨S8192x10240, .f32⟩
  | .hbm, ⟨9, _⟩ => ⟨S8192x10240, .f32⟩
  | .hbm, ⟨10, _⟩ => ⟨S8192x10240, .f32⟩
  | .hbm, ⟨11, _⟩ => ⟨S_, .f32⟩
  | .hbm, ⟨12, _⟩ => ⟨S1000x10240, .f32⟩
  | .hbm, ⟨13, _⟩ => ⟨S1000x10240, .i1⟩
  | .hbm, ⟨14, _⟩ => ⟨S_, .f32⟩
  | .hbm, ⟨15, _⟩ => ⟨S_, .f32⟩
  | .hbm, ⟨16, _⟩ => ⟨S1000x10240, .f32⟩
  | .hbm, ⟨17, _⟩ => ⟨S1000x10240, .f32⟩
  | .hbm, ⟨18, _⟩ => ⟨S1000x10240, .f32⟩
  | .hbm, ⟨19, _⟩ => ⟨S1000x10240, .f32⟩
  | .hbm, ⟨20, _⟩ => ⟨S8192x1000, .f32⟩
  | .hbm, ⟨21, _⟩ => ⟨S_, .f32⟩
  | .hbm, ⟨22, _⟩ => ⟨S8192x1000, .f32⟩
  | .hbm, ⟨23, _⟩ => ⟨S8192x1000, .f32⟩
  | .hbm, ⟨24, _⟩ => ⟨S_, .f32⟩
  | .hbm, ⟨25, _⟩ => ⟨S8192x1000, .f32⟩
  | .hbm, ⟨26, _⟩ => ⟨S8192x1000, .f32⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]

class Facts₀ : Prop where
  bcast_S_S8192x10240 : S_.BroadcastsInDim S8192x10240 (![] : Fin 0 → Fin S8192x10240.rank)
  bcast_S_S1000x10240 : S_.BroadcastsInDim S1000x10240 (![] : Fin 0 → Fin S1000x10240.rank)
  bcast_S_S8192x1000 : S_.BroadcastsInDim S8192x1000 (![] : Fin 0 → Fin S8192x1000.rank)
  dot_S8192x10240_S1000x10240_S8192x1000_1_1_0_0_n_n_wf : DotDims.WF S8192x10240 S1000x10240 S8192x1000 [1] [1] [0] [0] [] []

variable [Facts₀]

def dot_S8192x10240_S1000x10240_S8192x1000_1_1_0_0_n_n : DotDims S8192x10240 S1000x10240 S8192x1000 where
  lhsContracting := [1]
  rhsContracting := [1]
  lhsNonContracting := [0]
  rhsNonContracting := [0]
  lhsBatch := []
  rhsBatch := []
  wf := dot_S8192x10240_S1000x10240_S8192x1000_1_1_0_0_n_n_wf

class Facts : Prop extends Facts₀ where

variable [Facts]
-- ==== Proof.BitsSignQ.lean ====
/-
  The query sign-binarize region of the kernel program (the first of the program's three kernel calls), first half: what one run of the body
  leaves, stated for any contents of the unscoped buffers at the moment the region is entered.

  The grid is 16 × 5 = 80 points. A block is a 512 × 2048 tile of the 8192 × 10240 array: point t
  takes the tile with row block t / 5 and column block t % 5 of the f32 input main_arg0, and writes the tile
  at the same place of the bf16 output main_v0. The body reads the whole input tile, reads the output buffer
  without using what it read, and stores one whole tile: at each entry +1 where the input entry is > 0 and
  −1 otherwise, narrowed from f32 to bf16. So after the body the input buffer still holds the input tile and
  the output buffer holds that function of the input tile, whatever it held before.
-/
import proofs.«172129_j38036230373922_1_alg».proof.Proof.Gen.Kernel.Launch
import proofs.«172129_j38036230373922_1_alg».proof.Proof.Gen.Kernel.Skeleton
import proofs.«172129_j38036230373922_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.SignQ

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of every unscoped buffer when the region is entered
variable (V : (c : Dev nD) → (b : Ref sig .tc) → Buf (Elt F) ((c : Thread nD τ).loc b))

/-! ## The windows' blocks -/

/-- Window `w`'s block at point `t`: the 512 × 2048 tile of its array at the point's row and column block,
    read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input tile of the point when the body starts, at every point, for any
    proof data whose array is the entry contents and whose body leaves the tile in place: the input array is
    never written in this region, so a tile fetched earlier is still the array's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and stores: the whole 512 × 2048 buffer. -/
abbrev r0_0 : Rect S512x2048 := Rect.unit (s := S512x2048) ![0, 0] S512x2048.size inb_S512x2048_S512x2048_0_0

/-! ## What the body leaves in the output buffer -/

/-- The output buffer after the body, as a function of the input tile `x0`: one stored piece over the whole
    buffer, whose entry at a position is +1 where `x0` there is > 0 and −1 otherwise, narrowed to bf16. -/
def out0_1 (x0 : Vec F S512x2048 .f32) : Vec F S512x2048 .bf16 :=
  View.canon [⟨r0_0, k0_pay1 (View.ld x0 r0_0)⟩]

/-- The single store spans the whole buffer, so every position of the buffer lies in a stored piece. -/
theorem cover0_1 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The body on two whole buffers, the input's holding `x0` and the output's holding anything, runs to a state
    where the input's still holds `x0` and the output's holds `out0_1 x0`. -/
theorem sound_kernel0 (c : Dev nD) (E : Set ℕ) (i : grid0.Coords) (arg0 : Memref sig .tc .vmem S512x2048 .f32) (harg0 : arg0.IsWhole) (arg1 : Memref sig .tc .vmem S512x2048 .bf16) (harg1 : arg1.IsWhole)
    (x0 : Vec F S512x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__sign_kernel i arg0 harg0 arg1 harg1) K := by
  simp only [cc0__sign_kernel_eq_skeleton]; unfold cc0__sign_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The proof data of the region on core `c`: the two arrays as the region finds them; after the body at point
    `t` the input buffer at the point's input tile and the output buffer at `out0_1` of that tile; the resting
    invariant is the scoped buffers and the generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves in the input buffer: the input tile. -/
theorem after0_0 (c : Dev nD) (t : Fin cfg0.N) : (dat0 V c).after 0 t = iblk0 V c 0 t := by dsimp only [dat0]
/-- What the body leaves in the output buffer: the sign tile of the input tile. -/
theorem after0_1 (c : Dev nD) (t : Fin cfg0.N) : (dat0 V c).after 1 t = out0_1 (iblk0 V c 0 t) := by dsimp only [dat0]

/-- The input buffer holds the point's input tile when the body starts. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`: the invariant, what is owed, and the two current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input buffer holds its tile, so the body's triple applies; the invariant and what
    is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.SignQ

end
-- ==== Proof.BitsSignP.lean ====
/-
  The prototype sign-binarize region of the kernel program (the second of the program's three kernel calls), first half: what one run of the body
  leaves, stated for any contents of the unscoped buffers at the moment the region is entered.

  The grid is 1 × 5 = 5 points. A block is a 1000 × 2048 tile of the 1000 × 10240 array: point t
  takes the tile with row block t / 5 and column block t % 5 of the f32 input main_arg1, and writes the tile
  at the same place of the bf16 output main_v1. The body reads the whole input tile, reads the output buffer
  without using what it read, and stores one whole tile: at each entry +1 where the input entry is > 0 and
  −1 otherwise, narrowed from f32 to bf16. So after the body the input buffer still holds the input tile and
  the output buffer holds that function of the input tile, whatever it held before.
-/
import proofs.«172129_j38036230373922_1_alg».proof.Proof.Gen.Kernel.Launch
import proofs.«172129_j38036230373922_1_alg».proof.Proof.Gen.Kernel.Skeleton
import proofs.«172129_j38036230373922_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.SignP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of every unscoped buffer when the region is entered
variable (V : (c : Dev nD) → (b : Ref sig .tc) → Buf (Elt F) ((c : Thread nD τ).loc b))

/-! ## The windows' blocks -/

/-- Window `w`'s block at point `t`: the 1000 × 2048 tile of its array at the point's row and column block,
    read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the input tile of the point when the body starts, at every point, for any
    proof data whose array is the entry contents and whose body leaves the tile in place: the input array is
    never written in this region, so a tile fetched earlier is still the array's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body reads and stores: the whole 1000 × 2048 buffer. -/
abbrev r1_0 : Rect S1000x2048 := Rect.unit (s := S1000x2048) ![0, 0] S1000x2048.size inb_S1000x2048_S1000x2048_0_0

/-! ## What the body leaves in the output buffer -/

/-- The output buffer after the body, as a function of the input tile `x0`: one stored piece over the whole
    buffer, whose entry at a position is +1 where `x0` there is > 0 and −1 otherwise, narrowed to bf16. -/
def out1_1 (x0 : Vec F S1000x2048 .f32) : Vec F S1000x2048 .bf16 :=
  View.canon [⟨r1_0, k1_pay1 (View.ld x0 r1_0)⟩]

/-- The single store spans the whole buffer, so every position of the buffer lies in a stored piece. -/
theorem cover1_1 (p0 : Vec F S1000x2048 .bf16) (y : S1000x2048.Idx) :
    ∃ pc ∈ ([⟨r1_0, p0⟩] : List (View.Piece (Elt F) S1000x2048 .bf16)), y ∈ pc.1.set :=
  View.cover_of_tiled [⟨r1_0, p0⟩] S1000x2048.size (by rfl) y

/-! ## The body's triple -/

set_option maxHeartbeats 1000000 in
/-- The body on two whole buffers, the input's holding `x0` and the output's holding anything, runs to a state
    where the input's still holds `x0` and the output's holds `out1_1 x0`. -/
theorem sound_kernel1 (c : Dev nD) (E : Set ℕ) (i : grid1.Coords) (arg0 : Memref sig .tc .vmem S1000x2048 .f32) (harg0 : arg0.IsWhole) (arg1 : Memref sig .tc .vmem S1000x2048 .bf16) (harg1 : arg1.IsWhole)
    (x0 : Vec F S1000x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__sign_kernel i arg0 harg0 arg1 harg1) K := by
  simp only [cc1__sign_kernel_eq_skeleton]; unfold cc1__sign_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The region's proof data -/

/-- The proof data of the region on core `c`: the two arrays as the region finds them; after the body at point
    `t` the input buffer at the point's input tile and the output buffer at `out1_1` of that tile; the resting
    invariant is the scoped buffers and the generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves in the input buffer: the input tile. -/
theorem after1_0 (c : Dev nD) (t : Fin cfg1.N) : (dat1 V c).after 0 t = iblk1 V c 0 t := by dsimp only [dat1]
/-- What the body leaves in the output buffer: the sign tile of the input tile. -/
theorem after1_1 (c : Dev nD) (t : Fin cfg1.N) : (dat1 V c).after 1 t = out1_1 (iblk1 V c 0 t) := by dsimp only [dat1]

/-- The input buffer holds the point's input tile when the body starts. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`: the invariant, what is owed, and the two current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input buffer holds its tile, so the body's triple applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.SignP

end
-- ==== Proof.BitsHamRuns.lean ====
/-
  The matmul region (the third pallas_call) of the kernel program, first half: the region's facts that do not
  depend on what the body computes, and the body run once per control case.

  The grid is 8 × 5 = 40 points; point t has row block t / 5 and depth chunk k = t % 5. The body's first
  conditional (reset the accumulator) is taken exactly when k = 0, its second (write the result block) exactly
  when k = 4. So a point is in one of three cases: A (k = 0: reset, accumulate), B (k = 1, 2, 3: accumulate),
  C (k = 4: accumulate, then write the output block). The output window is idle, and not written back, at the
  points of cases A and B. For each case the body is run symbolically on whole staging buffers; the pieces its
  stores leave in the accumulator scratch and in the output buffer are found by that run.
-/
import proofs.«172129_j38036230373922_1_alg».proof.Proof.Gen.Kernel.Launch
import proofs.«172129_j38036230373922_1_alg».proof.Proof.Gen.Kernel.Skeleton
import proofs.«172129_j38036230373922_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Ham

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of every unscoped buffer when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "This is the first depth chunk": the reset's condition, as the body computes it from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

/-- "This is the last depth chunk": the write-out's condition. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The staging and scratch memrefs -/

/-- One staging buffer of the output window, through which its contents are stated. -/
abbrev VO2_2 : View sig .tc .vmem S1024x1000 .f32 := (Memref.whole cc2_stg2_0 : Memref sig .tc .vmem S1024x1000 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1000 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x1000 .f32 := Memref.whole cc2_scratch0
abbrev VS2_0 : View sig .tc .vmem S1024x1000 .f32 := scM2_0.view

/-- The region's resting invariant with the accumulator as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## The body, run once per case

In each case the body runs on whole staging memrefs: the two operand blocks at given contents and handed back
unchanged; the output buffer handed back untouched where the case stores nothing into it; the accumulator at what
the point before left (at anything in case A, which overwrites it first). What the stores leave — a list of
pieces per buffer, last store first — is the witness the symbolic run finds. -/

set_option maxHeartbeats 4000000 in
/-- Case A (first depth chunk): the accumulator is reset and the first partial product added; no output store. -/
noncomputable def kernelRun2_A (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) :
    Σ' (L2 : List (View.Piece (Elt F) S1024x1000 .f32)), { LS0 : List (View.Piece (Elt F) S1024x1000 .f32) //
      ∀ (xi2 : Vec F S1024x1000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__hamming_kernel i arg2 harg2 arg3 harg3 arg4 harg4 arg5 harg5) K } := by
  refine ⟨[], ?_, fun xi2 E K => ?run⟩
  case run =>
    simp only [cc2__hamming_kernel_eq_skeleton]; unfold cc2__hamming_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case B (a middle depth chunk): the partial product is added to the accumulator; no output store. -/
noncomputable def kernelRun2_B (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) :
    Σ' (L2 : List (View.Piece (Elt F) S1024x1000 .f32)), { LS0 : List (View.Piece (Elt F) S1024x1000 .f32) //
      ∀ (xi2 : Vec F S1024x1000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__hamming_kernel i arg2 harg2 arg3 harg3 arg4 harg4 arg5 harg5) K } := by
  refine ⟨[], ?_, fun xi2 E K => ?run⟩
  case run =>
    simp only [cc2__hamming_kernel_eq_skeleton]; unfold cc2__hamming_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case C (last depth chunk): the last partial product is added, then the output block is stored. -/
noncomputable def kernelRun2_C (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) :
    Σ' (L2 : List (View.Piece (Elt F) S1024x1000 .f32)), { LS0 : List (View.Piece (Elt F) S1024x1000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__hamming_kernel i arg2 harg2 arg3 harg3 arg4 harg4 arg5 harg5) K } := by
  refine ⟨?_, ?_, fun E K => ?run⟩
  case run =>
    simp only [cc2__hamming_kernel_eq_skeleton]; unfold cc2__hamming_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Ham

end
-- ==== Proof.BitsHamBody.lean ====
/-
  The matmul region (the third pallas_call), second half: what the accumulator and the output buffer hold after
  each grid point, the region's proof data, and the body obligation at every point.

  After the point t the accumulator holds: in case A (t % 5 = 0) the reset value plus the first partial product;
  in cases B and C what the point before left plus this point's partial product. In case C the output buffer is
  stored with a function of the accumulator. Between points the accumulator is carried in the region's invariant.
-/
import proofs.«172129_j38036230373922_1_alg».proof.Proof.BitsHamRuns

set_option maxRecDepth 16384

noncomputable section

namespace Cert.Kernel.Ham

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output buffer: a placeholder nothing consults. -/
def out2_A_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) : Vec F S1024x1000 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) (y : S1024x1000.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x1000.size (by sl_kernel_rfl) y

/-- What case A leaves in the accumulator. -/
def sout2_A_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) : Vec F S1024x1000 .f32 :=
  VS2_0.read (Elt F) (VS2_0.writes (Elt F) VS2_0.junk (kernelRun2_A c i arg2 harg2 arg3 harg3 arg4 harg4 arg5 harg5 hc0 hc1 x0 x1).2.1)

/-- Case B stores nothing into the output buffer: a placeholder nothing consults. -/
def out2_B_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) : Vec F S1024x1000 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) (y : S1024x1000.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x1000.size (by sl_kernel_rfl) y

/-- What case B leaves in the accumulator. -/
def sout2_B_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) : Vec F S1024x1000 .f32 :=
  VS2_0.read (Elt F) (VS2_0.writes (Elt F) VS2_0.junk (kernelRun2_B c i arg2 harg2 arg3 harg3 arg4 harg4 arg5 harg5 hc0 hc1 x0 x1 xs0).2.1)

/-- Case C's store into the output buffer covers it. -/
theorem cover2_C_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) (y : S1024x1000.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x1000.size (by sl_kernel_rfl) y

/-- What case C leaves in the output buffer. -/
def out2_C_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) : Vec F S1024x1000 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) (y : S1024x1000.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x1000.size (by sl_kernel_rfl) y

/-- What case C leaves in the accumulator. -/
def sout2_C_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) : Vec F S1024x1000 .f32 :=
  VS2_0.read (Elt F) (VS2_0.writes (Elt F) VS2_0.junk (kernelRun2_C c i arg2 harg2 arg3 harg3 arg4 harg4 arg5 harg5 hc0 hc1 x0 x1 xs0).2.1)

/-- The scoped buffers the region does not stage — the other two regions' staging buffers, each at anything — beside
    an assertion `S` about the accumulator. -/
def withRest (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ S)

/-- The region's resting invariant: those buffers, the accumulator at anything, the generator register at some state. -/
theorem PhiA2_rest (c : Dev nD) :
    (Pipeline.ΦA spec2 c : sProp 𝕄) = iprop(withRest c iprop(∃ d, owns (c : Thread nD τ) scM2_0 fullShare d) ∗ (∃ r, prngReg c r)) := by
  rw [PhiA2_eq]; rfl

/-! ## What the output buffer and the accumulator hold after each point -/

/-- After the body at position `n`: (the output window's staging buffer, the accumulator). The case is the one the
    closed forms select at `n`; cases B and C take the accumulator the point before left. -/
def outsAt2 (c : Dev nD) : (n : ℕ) → n < cfg2.N → Vec F S1024x1000 .f32 × Vec F S1024x1000 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 5 = 0 then
      if h1 : (n + 1) % 5 = 4 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 5 = 4 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a point of case A. -/
theorem outsAt2_A (c : Dev nD) (t : Fin cfg2.N) (h0 : t.val % 5 = 0) (h1 : ¬t.val % 5 = 4) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a point of case B: over what the point before left. -/
theorem outsAt2_B (c : Dev nD) (t : Fin cfg2.N) (h0 : ¬t.val % 5 = 0) (h1 : ¬t.val % 5 = 4) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt2_C (c : Dev nD) (t : Fin cfg2.N) (h0 : ¬t.val % 5 = 0) (h1 : t.val % 5 = 4) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before position `n`: at the start the region's resting invariant (every scoped buffer no window stages at
    anything, the generator register at some state); afterwards the same with the accumulator at what the point
    before left in it. -/
def PhiS2 (c : Dev nD) : (n : ℕ) → n ≤ cfg2.N → sProp 𝕄
  | 0, _ => Pipeline.ΦA spec2 c
  | n + 1, hn => iprop(withRest c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(withRest c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(withRest c (owns (c : Thread nD τ) scM2_0 fullShare ((outsAt2 V c (n - 1) (by omega)).2)) ∗ (∃ r, prngReg c r)) := by
  cases n with
  | zero => exact absurd rfl hz
  | succ n => rfl

/-! ## The region's proof data -/

/-- The arrays as the region finds them; after the body at point `t` each operand's buffer at its block, the output's
    at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the operands' memrefs hold their blocks; the closed forms say which case the point is in;
    the invariant hands the body the accumulator at what the point before left (at anything at the first point) and
    takes it back at this point's contents; where the case stores nothing into the output buffer it is handed back
    untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 40 := lt_of_lt_of_eq t.isLt (show cfg2.N = 40 from N_2)
  by_cases h0 : t.val % 5 = 0
  · by_cases h1 : t.val % 5 = 4
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_rest]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 5 = 4
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting invariant back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_rest]
  unfold withRest
  iintro ⟨⟨Ha, Hb, Hc', Hd, He, Hf, Hg', Hh, HS0⟩, Hg⟩
  isplitl [Ha Hb Hc' Hd He Hf Hg' Hh HS0]
  · isplitl [Ha]; · iexact Ha
    isplitl [Hb]; · iexact Hb
    isplitl [Hc']; · iexact Hc'
    isplitl [Hd]; · iexact Hd
    isplitl [He]; · iexact He
    isplitl [Hf]; · iexact Hf
    isplitl [Hg']; · iexact Hg'
    isplitl [Hh]; · iexact Hh
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

end Cert.Kernel.Ham

end
-- ==== Proof.BitsRun.lean ====
/-
  The run of the whole kernel program. @main is three kernel regions in a row with nothing between them: the
  query's sign binarization, the prototypes' sign binarization, and the Hamming product that reads both results.

  The contents of the core's unscoped buffers are followed from the launch through the three regions: a region
  replaces the contents of its windows' arrays by what its write-backs leave there and leaves every other buffer
  alone. Reading that chain backwards at a buffer says what the buffer holds at each boundary in terms of the
  launch memory: an argument array is only ever read, so it ends as launched; each intermediate is written by
  exactly one region and read, unchanged, by the last one; the result buffer ends at what the last region's
  write-backs leave.

  The run itself threads one thread state through the regions: every unscoped buffer at the boundary's contents,
  the generator register at some state, nothing owed. The first two regions rest at the invariant "the scoped
  buffers no window stages, each at anything, and the generator register"; the third carries its accumulator in
  its invariant between points, entered from that resting invariant and giving it back at the end. The final
  theorem states the result buffer's value and the arguments' frame together; the frame alone follows from it.
-/
import proofs.«172129_j38036230373922_1_alg».proof.Proof.BitsSignQ
import proofs.«172129_j38036230373922_1_alg».proof.Proof.BitsSignP
import proofs.«172129_j38036230373922_1_alg».proof.Proof.BitsHamBody
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the launch memory and the generator registers
variable (m : (ℓ : Loc nD τ sig) → Buf (Elt F) ℓ) (ρ : Dev nD → PrngReg)

/-! ## The buffer contents at each boundary

Boundary 0 is the launch; boundary k + 1 is region k's exit, which is region k + 1's entry. W at index k is the
contents of every buffer of the core at boundary k, V at index k the same read at the core's own references, which
is the form a region's proof data take their entry contents in. -/

/-- At launch: the launch memory. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the query's binarization: its two arrays at what its write-backs leave (the input as entered, the
    output's blocks folded in), every other buffer as launched. -/
def W1 (c : Dev nD) : Valuation τ sig (Elt F) :=
  Pipeline.withArrays spec0 c (W0 m ρ c) fun w => (SignQ.dat0 (V0 m ρ) c).arrAt w cfg0.N
theorem W1_arr (c : Dev nD) (w : Fin cfg0.W) :
    W1 m ρ c (Proc.devRef .tc (Pipeline.arrRef spec0 w)) = (SignQ.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- What the first region's exit needs: its arrays hold what the pipeline leaves, the rest is as entered. -/
theorem hF0 (c : Dev nD) (w : Fin cfg0.W) : (SignQ.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the prototypes' binarization: its two arrays at what its write-backs leave, the rest as it was. -/
def W2 (c : Dev nD) : Valuation τ sig (Elt F) :=
  Pipeline.withArrays spec1 c (W1 m ρ c) fun w => (SignP.dat1 (V1 m ρ) c).arrAt w cfg1.N
theorem W2_arr (c : Dev nD) (w : Fin cfg1.W) :
    W2 m ρ c (Proc.devRef .tc (Pipeline.arrRef spec1 w)) = (SignP.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (SignP.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the Hamming product: its three arrays at what its write-backs leave, the rest as it was. -/
def W3 (c : Dev nD) : Valuation τ sig (Elt F) :=
  Pipeline.withArrays spec2 c (W2 m ρ c) fun w => (Ham.dat2 (V2 m ρ) c).arrAt w cfg2.N
theorem W3_arr (c : Dev nD) (w : Fin cfg2.W) :
    W3 m ρ c (Proc.devRef .tc (Pipeline.arrRef spec2 w)) = (Ham.dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (Ham.dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## Reading the boundaries

Each buffer is written by at most one region, as an output window's array. At a boundary it therefore holds
either what that region's write-backs left or, before that region (and always, for an argument), the launch
memory. An input window's array passes through its region unchanged. -/

/-- The query argument at launch. -/
theorem V0_main_arg0 (c : Dev nD) : V0 m ρ c main_arg0 = m ((c : Thread nD τ).loc main_arg0) := rfl

/-- The binarized query after the first region: that region's output array. -/
theorem V1_main_v0 (c : Dev nD) : V1 m ρ c main_v0 = (SignQ.dat0 (V0 m ρ) c).arrAt 1 cfg0.N :=
  W1_arr m ρ c 1

/-- The first region does not touch the prototypes argument. -/
theorem V1_main_arg1 (c : Dev nD) : V1 m ρ c main_arg1 = m ((c : Thread nD τ).loc main_arg1) :=
  calc V1 m ρ c main_arg1
    _ = W0 m ρ c (Proc.devRef .tc main_arg1) := W1_of_ne m ρ c main_arg1 (by decide)
    _ = m ((c : Thread nD τ).loc main_arg1) := rfl

/-- The binarized prototypes after the second region: that region's output array. -/
theorem V2_main_v1 (c : Dev nD) : V2 m ρ c main_v1 = (SignP.dat1 (V1 m ρ) c).arrAt 1 cfg1.N :=
  W2_arr m ρ c 1

/-- The second region does not touch the binarized query. -/
theorem V2_main_v0 (c : Dev nD) : V2 m ρ c main_v0 = V1 m ρ c main_v0 :=
  W2_of_ne m ρ c main_v0 (by decide)

/-- The result buffer at the end: the last region's output array. -/
theorem W3_main_v2 (c : Dev nD) : W3 m ρ c (Proc.devRef .tc main_v2) = (Ham.dat2 (V2 m ρ) c).arrAt 2 cfg2.N :=
  W3_arr m ρ c 2

/-- The query argument at the end is the launch memory: the last two regions bypass it and the first only reads it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) :=
          (W1_arr m ρ c 0).trans (((SignQ.dat0 (V0 m ρ) c).arrAt_in 0 rfl _).trans (SignQ.A_eq0 (V0 m ρ) c 0))
    _ = m ((c : Thread nD τ).loc main_arg0) := rfl

/-- The prototypes argument at the end is the launch memory: the first and last regions bypass it and the second
    only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) :=
          (W2_arr m ρ c 0).trans (((SignP.dat1 (V1 m ρ) c).arrAt_in 0 rfl _).trans (SignP.A_eq1 (V1 m ρ) c 0))
    _ = W0 m ρ c (Proc.devRef .tc main_arg1) := W1_of_ne m ρ c main_arg1 (by decide)
    _ = m ((c : Thread nD τ).loc main_arg1) := rfl

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered with. Matching on the literal indices lets a
    pipeline's configuration at a numeral reduce to the printed one. -/
def pdats : (p : Fin 3) → (c : Dev nD) → Dat τ (Elt F) Unit ℕ (UR sig nD τ) ℕ (Pipeline.pin (pcfgs (F := F)) adm p) c
  | ⟨0, _⟩ => fun c => SignQ.dat0 (V0 m ρ) c
  | ⟨1, _⟩ => fun c => SignP.dat1 (V1 m ρ) c
  | ⟨2, _⟩ => fun c => Ham.dat2 (V2 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers, through every region: the generator register at some state, and the core owing nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the "owes nothing": every unscoped buffer at the final contents, the generator
    register at some state. -/
abbrev Tₙ (c : Dev nD) : sProp 𝕄 := iprop(StableHlo.held (c : Thread nD τ) (Pipeline.ucRefs τ sig) (W3 m ρ c) ∗ ∃ r, prngReg c r)

/-! ## The regions

Each region takes its windows' arrays out of the unscoped buffers at entry and puts them back, at the contents its
write-backs leave, at exit; the generator register goes into the region's invariant and comes back out; the
buffers that are no window's array bypass it. -/

set_option backward.isDefEq.respectTransparency.types false in
/-- The query's binarization: entered at the launch contents, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (SignQ.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The prototypes' binarization: entered at the contents the first region leaves, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (SignP.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Hamming product: entered at the contents the second region leaves, left at the final contents, which is what
    the run ends with. Its invariant carries the accumulator between points: it is entered from the resting
    invariant (the accumulator at anything) and gives the resting invariant back after the last point (what the
    accumulator holds is forgotten). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Ham.body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (Ham.dat2 (V2 m ρ) c).Φ 0 from rfl]
    refine BIBase.Entails.trans ?_ (Ham.hin2 (V2 m ρ) c)
    unfold Pipeline.ΦA
    iintro ⟨Hp, -, Hr⟩
    isplitl [Hr]; · iexact Hr
    iexact Hp
  hout c := by
    rw [Pipeline.ownSems0_none, show (pdats m ρ 2 c).Φ (Fin.last _) = (Ham.dat2 (V2 m ρ) c).Φ (Fin.last cfg2.N) from rfl]
    refine BIBase.Entails.trans (Ham.hout2 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three regions, and the run -/

/-- @main's segments: the three regions in order, nothing between them. -/
abbrev segs : List (Pipeline.Seg (pcfgs (F := F)) adm (pdats m ρ) () defs₀ 𝒱₀ L lv) :=
  [ .region (reg0 m ρ), .region (reg1 m ρ), .region (reg2 m ρ) ]
/-- @main is the run of those segments. -/
theorem main_run (c : Dev nD) : main (F := F) c = Pipeline.Seg.run (segs m ρ) := (main_chain c).trans (by chain_rfl)

set_option backward.isDefEq.respectTransparency.types false in
/-- THE RUN: from any memory with zero counters, every weakly fair execution of @main on the core terminates,
    nothing faulting, and in every final state the result buffer holds what the Hamming product's write-backs leave
    (read at the contents that region was entered with) and both argument arrays hold what they were launched with.
    The last thread state, every unscoped buffer at the final contents, is read against the final state; the result
    is those contents at the last region's output array, the arguments are those contents read back to the launch
    memory. -/
theorem run_value :
    θ_run defs (onTc (τ := τ) (main (F := F))) ⟨m, fun _ => 0, ρ⟩ (fun r => ∀ c : Dev nD,
      r.2.mem ((c.tc : Thread nD τ).loc main_v2) = (Ham.dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c)⟩)

/-- THE FRAME: the run terminates, nothing faulting, and both argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Run

end
-- ==== Proof.SignQ.lean ====
/-
  The query sign-binarize region of the kernel program (the first of the program's three kernel calls), first half: what one run of the body
  leaves, stated for any contents of the unscoped buffers at the moment the region is entered.

  The grid is 16 × 5 = 80 points. A block is a 512 × 2048 tile of the 8192 × 10240 array: point t
  takes the tile with row block t / 5 and column block t % 5 of the f32 input main_arg0, and writes the tile
  at the same place of the bf16 output main_v0. The body reads the whole input tile, reads the output buffer
  without using what it read, and stores one whole tile: at each entry +1 where the input entry is > 0 and
  −1 otherwise, narrowed from f32 to bf16. So after the body the input buffer still holds the input tile and
  the output buffer holds that function of the input tile, whatever it held before.
-/
import proofs.«172129_j38036230373922_1_alg».proof.Proof.Gen.KernelIdeal.Launch
import proofs.«172129_j38036230373922_1_alg».proof.Proof.Gen.KernelIdeal.Skeleton
import proofs.«172129_j38036230373922_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.SignQ

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of every unscoped buffer when the region is entered
variable (V : (c : Dev nD) → (b : Ref sig .tc) → Buf (Elt F) ((c : Thread nD τ).loc b))

/-! ## The windows' blocks -/

/-- Window `w`'s block at point `t`: the 512 × 2048 tile of its array at the point's row and column block,
    read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input tile of the point when the body starts, at every point, for any
    proof data whose array is the entry contents and whose body leaves the tile in place: the input array is
    never written in this region, so a tile fetched earlier is still the array's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and stores: the whole 512 × 2048 buffer. -/
abbrev r0_0 : Rect S512x2048 := Rect.unit (s := S512x2048) ![0, 0] S512x2048.size inb_S512x2048_S512x2048_0_0

/-! ## What the body leaves in the output buffer -/

/-- The output buffer after the body, as a function of the input tile `x0`: one stored piece over the whole
    buffer, whose entry at a position is +1 where `x0` there is > 0 and −1 otherwise, narrowed to bf16. -/
def out0_1 (x0 : Vec F S512x2048 .f32) : Vec F S512x2048 .bf16 :=
  View.canon [⟨r0_0, k0_pay1 (View.ld x0 r0_0)⟩]

/-- The single store spans the whole buffer, so every position of the buffer lies in a stored piece. -/
theorem cover0_1 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The body on two whole buffers, the input's holding `x0` and the output's holding anything, runs to a state
    where the input's still holds `x0` and the output's holds `out0_1 x0`. -/
theorem sound_kernel0 (c : Dev nD) (E : Set ℕ) (i : grid0.Coords) (arg0 : Memref sig .tc .vmem S512x2048 .f32) (harg0 : arg0.IsWhole) (arg1 : Memref sig .tc .vmem S512x2048 .bf16) (harg1 : arg1.IsWhole)
    (x0 : Vec F S512x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__sign_kernel i arg0 harg0 arg1 harg1) K := by
  simp only [cc0__sign_kernel_eq_skeleton]; unfold cc0__sign_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The proof data of the region on core `c`: the two arrays as the region finds them; after the body at point
    `t` the input buffer at the point's input tile and the output buffer at `out0_1` of that tile; the resting
    invariant is the scoped buffers and the generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves in the input buffer: the input tile. -/
theorem after0_0 (c : Dev nD) (t : Fin cfg0.N) : (dat0 V c).after 0 t = iblk0 V c 0 t := by dsimp only [dat0]
/-- What the body leaves in the output buffer: the sign tile of the input tile. -/
theorem after0_1 (c : Dev nD) (t : Fin cfg0.N) : (dat0 V c).after 1 t = out0_1 (iblk0 V c 0 t) := by dsimp only [dat0]

/-- The input buffer holds the point's input tile when the body starts. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`: the invariant, what is owed, and the two current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input buffer holds its tile, so the body's triple applies; the invariant and what
    is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.SignQ

end
-- ==== Proof.SignP.lean ====
/-
  The prototype sign-binarize region of the kernel program (the second of the program's three kernel calls), first half: what one run of the body
  leaves, stated for any contents of the unscoped buffers at the moment the region is entered.

  The grid is 1 × 5 = 5 points. A block is a 1000 × 2048 tile of the 1000 × 10240 array: point t
  takes the tile with row block t / 5 and column block t % 5 of the f32 input main_arg1, and writes the tile
  at the same place of the bf16 output main_v1. The body reads the whole input tile, reads the output buffer
  without using what it read, and stores one whole tile: at each entry +1 where the input entry is > 0 and
  −1 otherwise, narrowed from f32 to bf16. So after the body the input buffer still holds the input tile and
  the output buffer holds that function of the input tile, whatever it held before.
-/
import proofs.«172129_j38036230373922_1_alg».proof.Proof.Gen.KernelIdeal.Launch
import proofs.«172129_j38036230373922_1_alg».proof.Proof.Gen.KernelIdeal.Skeleton
import proofs.«172129_j38036230373922_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.SignP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of every unscoped buffer when the region is entered
variable (V : (c : Dev nD) → (b : Ref sig .tc) → Buf (Elt F) ((c : Thread nD τ).loc b))

/-! ## The windows' blocks -/

/-- Window `w`'s block at point `t`: the 1000 × 2048 tile of its array at the point's row and column block,
    read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the input tile of the point when the body starts, at every point, for any
    proof data whose array is the entry contents and whose body leaves the tile in place: the input array is
    never written in this region, so a tile fetched earlier is still the array's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body reads and stores: the whole 1000 × 2048 buffer. -/
abbrev r1_0 : Rect S1000x2048 := Rect.unit (s := S1000x2048) ![0, 0] S1000x2048.size inb_S1000x2048_S1000x2048_0_0

/-! ## What the body leaves in the output buffer -/

/-- The output buffer after the body, as a function of the input tile `x0`: one stored piece over the whole
    buffer, whose entry at a position is +1 where `x0` there is > 0 and −1 otherwise, narrowed to bf16. -/
def out1_1 (x0 : Vec F S1000x2048 .f32) : Vec F S1000x2048 .bf16 :=
  View.canon [⟨r1_0, k1_pay1 (View.ld x0 r1_0)⟩]

/-- The single store spans the whole buffer, so every position of the buffer lies in a stored piece. -/
theorem cover1_1 (p0 : Vec F S1000x2048 .bf16) (y : S1000x2048.Idx) :
    ∃ pc ∈ ([⟨r1_0, p0⟩] : List (View.Piece (Elt F) S1000x2048 .bf16)), y ∈ pc.1.set :=
  View.cover_of_tiled [⟨r1_0, p0⟩] S1000x2048.size (by rfl) y

/-! ## The body's triple -/

set_option maxHeartbeats 1000000 in
/-- The body on two whole buffers, the input's holding `x0` and the output's holding anything, runs to a state
    where the input's still holds `x0` and the output's holds `out1_1 x0`. -/
theorem sound_kernel1 (c : Dev nD) (E : Set ℕ) (i : grid1.Coords) (arg0 : Memref sig .tc .vmem S1000x2048 .f32) (harg0 : arg0.IsWhole) (arg1 : Memref sig .tc .vmem S1000x2048 .bf16) (harg1 : arg1.IsWhole)
    (x0 : Vec F S1000x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__sign_kernel i arg0 harg0 arg1 harg1) K := by
  simp only [cc1__sign_kernel_eq_skeleton]; unfold cc1__sign_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The region's proof data -/

/-- The proof data of the region on core `c`: the two arrays as the region finds them; after the body at point
    `t` the input buffer at the point's input tile and the output buffer at `out1_1` of that tile; the resting
    invariant is the scoped buffers and the generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves in the input buffer: the input tile. -/
theorem after1_0 (c : Dev nD) (t : Fin cfg1.N) : (dat1 V c).after 0 t = iblk1 V c 0 t := by dsimp only [dat1]
/-- What the body leaves in the output buffer: the sign tile of the input tile. -/
theorem after1_1 (c : Dev nD) (t : Fin cfg1.N) : (dat1 V c).after 1 t = out1_1 (iblk1 V c 0 t) := by dsimp only [dat1]

/-- The input buffer holds the point's input tile when the body starts. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`: the invariant, what is owed, and the two current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input buffer holds its tile, so the body's triple applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.SignP

end
-- ==== Proof.HamRuns.lean ====
/-
  The matmul region (the third pallas_call) of the kernel program, first half: the region's facts that do not
  depend on what the body computes, and the body run once per control case.

  The grid is 8 × 5 = 40 points; point t has row block t / 5 and depth chunk k = t % 5. The body's first
  conditional (reset the accumulator) is taken exactly when k = 0, its second (write the result block) exactly
  when k = 4. So a point is in one of three cases: A (k = 0: reset, accumulate), B (k = 1, 2, 3: accumulate),
  C (k = 4: accumulate, then write the output block). The output window is idle, and not written back, at the
  points of cases A and B. For each case the body is run symbolically on whole staging buffers; the pieces its
  stores leave in the accumulator scratch and in the output buffer are found by that run.
-/
import proofs.«172129_j38036230373922_1_alg».proof.Proof.Gen.KernelIdeal.Launch
import proofs.«172129_j38036230373922_1_alg».proof.Proof.Gen.KernelIdeal.Skeleton
import proofs.«172129_j38036230373922_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Ham

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of every unscoped buffer when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "This is the first depth chunk": the reset's condition, as the body computes it from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

/-- "This is the last depth chunk": the write-out's condition. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The staging and scratch memrefs -/

/-- One staging buffer of the output window, through which its contents are stated. -/
abbrev VO2_2 : View sig .tc .vmem S1024x1000 .f32 := (Memref.whole cc2_stg2_0 : Memref sig .tc .vmem S1024x1000 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1000 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x1000 .f32 := Memref.whole cc2_scratch0
abbrev VS2_0 : View sig .tc .vmem S1024x1000 .f32 := scM2_0.view

/-- The region's resting invariant with the accumulator as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## The body, run once per case

In each case the body runs on whole staging memrefs: the two operand blocks at given contents and handed back
unchanged; the output buffer handed back untouched where the case stores nothing into it; the accumulator at what
the point before left (at anything in case A, which overwrites it first). What the stores leave — a list of
pieces per buffer, last store first — is the witness the symbolic run finds. -/

set_option maxHeartbeats 4000000 in
/-- Case A (first depth chunk): the accumulator is reset and the first partial product added; no output store. -/
noncomputable def kernelRun2_A (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) :
    Σ' (L2 : List (View.Piece (Elt F) S1024x1000 .f32)), { LS0 : List (View.Piece (Elt F) S1024x1000 .f32) //
      ∀ (xi2 : Vec F S1024x1000 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__hamming_kernel i arg2 harg2 arg3 harg3 arg4 harg4 arg5 harg5) K } := by
  refine ⟨[], ?_, fun xi2 E K => ?run⟩
  case run =>
    simp only [cc2__hamming_kernel_eq_skeleton]; unfold cc2__hamming_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case B (a middle depth chunk): the partial product is added to the accumulator; no output store. -/
noncomputable def kernelRun2_B (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) :
    Σ' (L2 : List (View.Piece (Elt F) S1024x1000 .f32)), { LS0 : List (View.Piece (Elt F) S1024x1000 .f32) //
      ∀ (xi2 : Vec F S1024x1000 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__hamming_kernel i arg2 harg2 arg3 harg3 arg4 harg4 arg5 harg5) K } := by
  refine ⟨[], ?_, fun xi2 E K => ?run⟩
  case run =>
    simp only [cc2__hamming_kernel_eq_skeleton]; unfold cc2__hamming_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case C (last depth chunk): the last partial product is added, then the output block is stored. -/
noncomputable def kernelRun2_C (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) :
    Σ' (L2 : List (View.Piece (Elt F) S1024x1000 .f32)), { LS0 : List (View.Piece (Elt F) S1024x1000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__hamming_kernel i arg2 harg2 arg3 harg3 arg4 harg4 arg5 harg5) K } := by
  refine ⟨?_, ?_, fun E K => ?run⟩
  case run =>
    simp only [cc2__hamming_kernel_eq_skeleton]; unfold cc2__hamming_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Ham

end
-- ==== Proof.HamBody.lean ====
/-
  The matmul region (the third pallas_call), second half: what the accumulator and the output buffer hold after
  each grid point, the region's proof data, and the body obligation at every point.

  After the point t the accumulator holds: in case A (t % 5 = 0) the reset value plus the first partial product;
  in cases B and C what the point before left plus this point's partial product. In case C the output buffer is
  stored with a function of the accumulator. Between points the accumulator is carried in the region's invariant.
-/
import proofs.«172129_j38036230373922_1_alg».proof.Proof.HamRuns

set_option maxRecDepth 16384

noncomputable section

namespace Cert.KernelIdeal.Ham

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output buffer: a placeholder nothing consults. -/
def out2_A_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) : Vec F S1024x1000 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) (y : S1024x1000.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x1000.size (by sl_kernel_rfl) y

/-- What case A leaves in the accumulator. -/
def sout2_A_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) : Vec F S1024x1000 .f32 :=
  VS2_0.read (Elt F) (VS2_0.writes (Elt F) VS2_0.junk (kernelRun2_A c i arg2 harg2 arg3 harg3 arg4 harg4 arg5 harg5 hc0 hc1 x0 x1).2.1)

/-- Case B stores nothing into the output buffer: a placeholder nothing consults. -/
def out2_B_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) : Vec F S1024x1000 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) (y : S1024x1000.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x1000.size (by sl_kernel_rfl) y

/-- What case B leaves in the accumulator. -/
def sout2_B_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) : Vec F S1024x1000 .f32 :=
  VS2_0.read (Elt F) (VS2_0.writes (Elt F) VS2_0.junk (kernelRun2_B c i arg2 harg2 arg3 harg3 arg4 harg4 arg5 harg5 hc0 hc1 x0 x1 xs0).2.1)

/-- Case C's store into the output buffer covers it. -/
theorem cover2_C_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) (y : S1024x1000.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x1000.size (by sl_kernel_rfl) y

/-- What case C leaves in the output buffer. -/
def out2_C_2 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) : Vec F S1024x1000 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) (y : S1024x1000.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x1000.size (by sl_kernel_rfl) y

/-- What case C leaves in the accumulator. -/
def sout2_C_0 (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) : Vec F S1024x1000 .f32 :=
  VS2_0.read (Elt F) (VS2_0.writes (Elt F) VS2_0.junk (kernelRun2_C c i arg2 harg2 arg3 harg3 arg4 harg4 arg5 harg5 hc0 hc1 x0 x1 xs0).2.1)

/-- The scoped buffers the region does not stage — the other two regions' staging buffers, each at anything — beside
    an assertion `S` about the accumulator. -/
def withRest (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ S)

/-- The region's resting invariant: those buffers, the accumulator at anything, the generator register at some state. -/
theorem PhiA2_rest (c : Dev nD) :
    (Pipeline.ΦA spec2 c : sProp 𝕄) = iprop(withRest c iprop(∃ d, owns (c : Thread nD τ) scM2_0 fullShare d) ∗ (∃ r, prngReg c r)) := by
  rw [PhiA2_eq]; rfl

/-! ## What the output buffer and the accumulator hold after each point -/

/-- After the body at position `n`: (the output window's staging buffer, the accumulator). The case is the one the
    closed forms select at `n`; cases B and C take the accumulator the point before left. -/
def outsAt2 (c : Dev nD) : (n : ℕ) → n < cfg2.N → Vec F S1024x1000 .f32 × Vec F S1024x1000 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 5 = 0 then
      if h1 : (n + 1) % 5 = 4 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 5 = 4 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a point of case A. -/
theorem outsAt2_A (c : Dev nD) (t : Fin cfg2.N) (h0 : t.val % 5 = 0) (h1 : ¬t.val % 5 = 4) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a point of case B: over what the point before left. -/
theorem outsAt2_B (c : Dev nD) (t : Fin cfg2.N) (h0 : ¬t.val % 5 = 0) (h1 : ¬t.val % 5 = 4) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt2_C (c : Dev nD) (t : Fin cfg2.N) (h0 : ¬t.val % 5 = 0) (h1 : t.val % 5 = 4) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before position `n`: at the start the region's resting invariant (every scoped buffer no window stages at
    anything, the generator register at some state); afterwards the same with the accumulator at what the point
    before left in it. -/
def PhiS2 (c : Dev nD) : (n : ℕ) → n ≤ cfg2.N → sProp 𝕄
  | 0, _ => Pipeline.ΦA spec2 c
  | n + 1, hn => iprop(withRest c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(withRest c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(withRest c (owns (c : Thread nD τ) scM2_0 fullShare ((outsAt2 V c (n - 1) (by omega)).2)) ∗ (∃ r, prngReg c r)) := by
  cases n with
  | zero => exact absurd rfl hz
  | succ n => rfl

/-! ## The region's proof data -/

/-- The arrays as the region finds them; after the body at point `t` each operand's buffer at its block, the output's
    at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the operands' memrefs hold their blocks; the closed forms say which case the point is in;
    the invariant hands the body the accumulator at what the point before left (at anything at the first point) and
    takes it back at this point's contents; where the case stores nothing into the output buffer it is handed back
    untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 40 := lt_of_lt_of_eq t.isLt (show cfg2.N = 40 from N_2)
  by_cases h0 : t.val % 5 = 0
  · by_cases h1 : t.val % 5 = 4
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_rest]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 5 = 4
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        unfold withRest
        iintro ⟨⟨⟨Ha, Hb, Hc', Hd, He, Hf, Hg', Hh, HS0⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc' Hd He Hf Hg' Hh HS0 Hg]
        · isplitl [Ha Hb Hc' Hd He Hf Hg' Hh HS0]
          · isplitl [Ha]; · iexact Ha
            isplitl [Hb]; · iexact Hb
            isplitl [Hc']; · iexact Hc'
            isplitl [Hd]; · iexact Hd
            isplitl [He]; · iexact He
            isplitl [Hf]; · iexact Hf
            isplitl [Hg']; · iexact Hg'
            isplitl [Hh]; · iexact Hh
            unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting invariant back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_rest]
  unfold withRest
  iintro ⟨⟨Ha, Hb, Hc', Hd, He, Hf, Hg', Hh, HS0⟩, Hg⟩
  isplitl [Ha Hb Hc' Hd He Hf Hg' Hh HS0]
  · isplitl [Ha]; · iexact Ha
    isplitl [Hb]; · iexact Hb
    isplitl [Hc']; · iexact Hc'
    isplitl [Hd]; · iexact Hd
    isplitl [He]; · iexact He
    isplitl [Hf]; · iexact Hf
    isplitl [Hg']; · iexact Hg'
    isplitl [Hh]; · iexact Hh
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

end Cert.KernelIdeal.Ham

end
-- ==== Proof.Run.lean ====
/-
  The run of the whole kernel program. @main is three kernel regions in a row with nothing between them: the
  query's sign binarization, the prototypes' sign binarization, and the Hamming product that reads both results.

  The contents of the core's unscoped buffers are followed from the launch through the three regions: a region
  replaces the contents of its windows' arrays by what its write-backs leave there and leaves every other buffer
  alone. Reading that chain backwards at a buffer says what the buffer holds at each boundary in terms of the
  launch memory: an argument array is only ever read, so it ends as launched; each intermediate is written by
  exactly one region and read, unchanged, by the last one; the result buffer ends at what the last region's
  write-backs leave.

  The run itself threads one thread state through the regions: every unscoped buffer at the boundary's contents,
  the generator register at some state, nothing owed. The first two regions rest at the invariant "the scoped
  buffers no window stages, each at anything, and the generator register"; the third carries its accumulator in
  its invariant between points, entered from that resting invariant and giving it back at the end. The final
  theorem states the result buffer's value and the arguments' frame together; the frame alone follows from it.
-/
import proofs.«172129_j38036230373922_1_alg».proof.Proof.SignQ
import proofs.«172129_j38036230373922_1_alg».proof.Proof.SignP
import proofs.«172129_j38036230373922_1_alg».proof.Proof.HamBody
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the launch memory and the generator registers
variable (m : (ℓ : Loc nD τ sig) → Buf (Elt F) ℓ) (ρ : Dev nD → PrngReg)

/-! ## The buffer contents at each boundary

Boundary 0 is the launch; boundary k + 1 is region k's exit, which is region k + 1's entry. W at index k is the
contents of every buffer of the core at boundary k, V at index k the same read at the core's own references, which
is the form a region's proof data take their entry contents in. -/

/-- At launch: the launch memory. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the query's binarization: its two arrays at what its write-backs leave (the input as entered, the
    output's blocks folded in), every other buffer as launched. -/
def W1 (c : Dev nD) : Valuation τ sig (Elt F) :=
  Pipeline.withArrays spec0 c (W0 m ρ c) fun w => (SignQ.dat0 (V0 m ρ) c).arrAt w cfg0.N
theorem W1_arr (c : Dev nD) (w : Fin cfg0.W) :
    W1 m ρ c (Proc.devRef .tc (Pipeline.arrRef spec0 w)) = (SignQ.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- What the first region's exit needs: its arrays hold what the pipeline leaves, the rest is as entered. -/
theorem hF0 (c : Dev nD) (w : Fin cfg0.W) : (SignQ.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the prototypes' binarization: its two arrays at what its write-backs leave, the rest as it was. -/
def W2 (c : Dev nD) : Valuation τ sig (Elt F) :=
  Pipeline.withArrays spec1 c (W1 m ρ c) fun w => (SignP.dat1 (V1 m ρ) c).arrAt w cfg1.N
theorem W2_arr (c : Dev nD) (w : Fin cfg1.W) :
    W2 m ρ c (Proc.devRef .tc (Pipeline.arrRef spec1 w)) = (SignP.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (SignP.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the Hamming product: its three arrays at what its write-backs leave, the rest as it was. -/
def W3 (c : Dev nD) : Valuation τ sig (Elt F) :=
  Pipeline.withArrays spec2 c (W2 m ρ c) fun w => (Ham.dat2 (V2 m ρ) c).arrAt w cfg2.N
theorem W3_arr (c : Dev nD) (w : Fin cfg2.W) :
    W3 m ρ c (Proc.devRef .tc (Pipeline.arrRef spec2 w)) = (Ham.dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (Ham.dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## Reading the boundaries

Each buffer is written by at most one region, as an output window's array. At a boundary it therefore holds
either what that region's write-backs left or, before that region (and always, for an argument), the launch
memory. An input window's array passes through its region unchanged. -/

/-- The query argument at launch. -/
theorem V0_main_arg0 (c : Dev nD) : V0 m ρ c main_arg0 = m ((c : Thread nD τ).loc main_arg0) := rfl

/-- The binarized query after the first region: that region's output array. -/
theorem V1_main_v0 (c : Dev nD) : V1 m ρ c main_v0 = (SignQ.dat0 (V0 m ρ) c).arrAt 1 cfg0.N :=
  W1_arr m ρ c 1

/-- The first region does not touch the prototypes argument. -/
theorem V1_main_arg1 (c : Dev nD) : V1 m ρ c main_arg1 = m ((c : Thread nD τ).loc main_arg1) :=
  calc V1 m ρ c main_arg1
    _ = W0 m ρ c (Proc.devRef .tc main_arg1) := W1_of_ne m ρ c main_arg1 (by decide)
    _ = m ((c : Thread nD τ).loc main_arg1) := rfl

/-- The binarized prototypes after the second region: that region's output array. -/
theorem V2_main_v1 (c : Dev nD) : V2 m ρ c main_v1 = (SignP.dat1 (V1 m ρ) c).arrAt 1 cfg1.N :=
  W2_arr m ρ c 1

/-- The second region does not touch the binarized query. -/
theorem V2_main_v0 (c : Dev nD) : V2 m ρ c main_v0 = V1 m ρ c main_v0 :=
  W2_of_ne m ρ c main_v0 (by decide)

/-- The result buffer at the end: the last region's output array. -/
theorem W3_main_v2 (c : Dev nD) : W3 m ρ c (Proc.devRef .tc main_v2) = (Ham.dat2 (V2 m ρ) c).arrAt 2 cfg2.N :=
  W3_arr m ρ c 2

/-- The query argument at the end is the launch memory: the last two regions bypass it and the first only reads it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) :=
          (W1_arr m ρ c 0).trans (((SignQ.dat0 (V0 m ρ) c).arrAt_in 0 rfl _).trans (SignQ.A_eq0 (V0 m ρ) c 0))
    _ = m ((c : Thread nD τ).loc main_arg0) := rfl

/-- The prototypes argument at the end is the launch memory: the first and last regions bypass it and the second
    only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) :=
          (W2_arr m ρ c 0).trans (((SignP.dat1 (V1 m ρ) c).arrAt_in 0 rfl _).trans (SignP.A_eq1 (V1 m ρ) c 0))
    _ = W0 m ρ c (Proc.devRef .tc main_arg1) := W1_of_ne m ρ c main_arg1 (by decide)
    _ = m ((c : Thread nD τ).loc main_arg1) := rfl

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered with. Matching on the literal indices lets a
    pipeline's configuration at a numeral reduce to the printed one. -/
def pdats : (p : Fin 3) → (c : Dev nD) → Dat τ (Elt F) Unit ℕ (UR sig nD τ) ℕ (Pipeline.pin (pcfgs (F := F)) adm p) c
  | ⟨0, _⟩ => fun c => SignQ.dat0 (V0 m ρ) c
  | ⟨1, _⟩ => fun c => SignP.dat1 (V1 m ρ) c
  | ⟨2, _⟩ => fun c => Ham.dat2 (V2 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers, through every region: the generator register at some state, and the core owing nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the "owes nothing": every unscoped buffer at the final contents, the generator
    register at some state. -/
abbrev Tₙ (c : Dev nD) : sProp 𝕄 := iprop(StableHlo.held (c : Thread nD τ) (Pipeline.ucRefs τ sig) (W3 m ρ c) ∗ ∃ r, prngReg c r)

/-! ## The regions

Each region takes its windows' arrays out of the unscoped buffers at entry and puts them back, at the contents its
write-backs leave, at exit; the generator register goes into the region's invariant and comes back out; the
buffers that are no window's array bypass it. -/

set_option backward.isDefEq.respectTransparency.types false in
/-- The query's binarization: entered at the launch contents, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (SignQ.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The prototypes' binarization: entered at the contents the first region leaves, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (SignP.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Hamming product: entered at the contents the second region leaves, left at the final contents, which is what
    the run ends with. Its invariant carries the accumulator between points: it is entered from the resting
    invariant (the accumulator at anything) and gives the resting invariant back after the last point (what the
    accumulator holds is forgotten). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Ham.body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (Ham.dat2 (V2 m ρ) c).Φ 0 from rfl]
    refine BIBase.Entails.trans ?_ (Ham.hin2 (V2 m ρ) c)
    unfold Pipeline.ΦA
    iintro ⟨Hp, -, Hr⟩
    isplitl [Hr]; · iexact Hr
    iexact Hp
  hout c := by
    rw [Pipeline.ownSems0_none, show (pdats m ρ 2 c).Φ (Fin.last _) = (Ham.dat2 (V2 m ρ) c).Φ (Fin.last cfg2.N) from rfl]
    refine BIBase.Entails.trans (Ham.hout2 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three regions, and the run -/

/-- @main's segments: the three regions in order, nothing between them. -/
abbrev segs : List (Pipeline.Seg (pcfgs (F := F)) adm (pdats m ρ) () defs₀ 𝒱₀ L lv) :=
  [ .region (reg0 m ρ), .region (reg1 m ρ), .region (reg2 m ρ) ]
/-- @main is the run of those segments. -/
theorem main_run (c : Dev nD) : main (F := F) c = Pipeline.Seg.run (segs m ρ) := (main_chain c).trans (by chain_rfl)

set_option backward.isDefEq.respectTransparency.types false in
/-- THE RUN: from any memory with zero counters, every weakly fair execution of @main on the core terminates,
    nothing faulting, and in every final state the result buffer holds what the Hamming product's write-backs leave
    (read at the contents that region was entered with) and both argument arrays hold what they were launched with.
    The last thread state, every unscoped buffer at the final contents, is read against the final state; the result
    is those contents at the last region's output array, the arguments are those contents read back to the launch
    memory. -/
theorem run_value :
    θ_run defs (onTc (τ := τ) (main (F := F))) ⟨m, fun _ => 0, ρ⟩ (fun r => ∀ c : Dev nD,
      r.2.mem ((c.tc : Thread nD τ).loc main_v2) = (Ham.dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c)⟩)

/-- THE FRAME: the run terminates, nothing faulting, and both argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Run

end
-- ==== Proof.HamBlocks.lean ====
/-
  The matmul region of the kernel program: where its windows' blocks sit in their arrays.

  The grid is 8 × 5 = 40 points; point t has row block t / 5 and depth chunk t % 5. The left operand's block at t
  is rows (t / 5) · 1024 … + 1023 and depth positions (t % 5) · 2048 … + 2047 of its array; the right operand's
  block is all 1000 rows at the same depth positions; the output's block is rows (t / 5) · 1024 … + 1023, all 1000
  columns. The output is written back exactly at the points with t % 5 = 4, and row p of the output lies in the
  block of the point 5 · (p / 1024) + 4: the written blocks cover the output array.
-/
import proofs.«172129_j38036230373922_1_alg».proof.Proof.HamBody
import Idealize.ShloMosaic.Lib.Pipeline.Value
import Idealize.ShloMosaic.Lib.ValueIdx

set_option maxRecDepth 16384

noncomputable section

namespace Cert.KernelIdeal.Ham

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

-- the contents of every unscoped buffer when the region is entered
variable (V : (c : Dev nD) → (b : Ref sig .tc) → Buf (Elt F) ((c : Thread nD τ).loc b))

/-! ## The block indices, decided once over the grid -/

/-- At point t the left operand's block index is (t / 5, t % 5), the right operand's (0, t % 5), the output's (t / 5, 0). -/
theorem blockIdx2 : ∀ t : Fin cfg2.N, win2_0.index t (0 : Fin 2) = t.val / 5 ∧ win2_0.index t (1 : Fin 2) = t.val % 5
    ∧ win2_1.index t (0 : Fin 2) = 0 ∧ win2_1.index t (1 : Fin 2) = t.val % 5
    ∧ win2_2.index t (0 : Fin 2) = t.val / 5 ∧ win2_2.index t (1 : Fin 2) = 0 :=
  (by decide +kernel : ∀ t : Fin grid2.N, _)

/-! ## The operands' blocks, entry by entry -/

/-- Entry (r, e) of the left operand's block at point t is entry ((t / 5) · 1024 + r, (t % 5) · 2048 + e) of its array. -/
theorem lblk_apply (c : Dev nD) (t : Fin cfg2.N) (r : Fin 1024) (e : Fin 2048) (k : S8192x10240.Idx)
    (hk0 : (k 0).val = t.val / 5 * 1024 + r.val) (hk1 : (k 1).val = t.val % 5 * 2048 + e.val) :
    (iblk2 V c 0 t : Vec F S1024x2048 .bf16) (ix2 r e) = (V c main_v0 : S8192x10240.Idx → Elt F .bf16) k := by
  obtain ⟨e0, e1, -⟩ := blockIdx2 t
  unfold iblk2
  rw [View.read_apply]
  show V c main_v0 _ = V c main_v0 _
  congr 1
  funext a
  apply Fin.ext
  match a with
  | ⟨0, _⟩ => show win2_0.index t (0 : Fin 2) * 1024 + 1 * r.val = (k 0).val; rw [e0, hk0]; omega
  | ⟨1, _⟩ => show win2_0.index t (1 : Fin 2) * 2048 + 1 * e.val = (k 1).val; rw [e1, hk1]; omega

/-- Entry (q, e) of the right operand's block at point t is entry (q, (t % 5) · 2048 + e) of its array. -/
theorem rblk_apply (c : Dev nD) (t : Fin cfg2.N) (q : Fin 1000) (e : Fin 2048) (k : S1000x10240.Idx)
    (hk0 : (k 0).val = q.val) (hk1 : (k 1).val = t.val % 5 * 2048 + e.val) :
    (iblk2 V c 1 t : Vec F S1000x2048 .bf16) (ix2 q e) = (V c main_v1 : S1000x10240.Idx → Elt F .bf16) k := by
  obtain ⟨-, -, e2, e3, -⟩ := blockIdx2 t
  unfold iblk2
  rw [View.read_apply]
  show V c main_v1 _ = V c main_v1 _
  congr 1
  funext a
  apply Fin.ext
  match a with
  | ⟨0, _⟩ => show win2_1.index t (0 : Fin 2) * 1000 + 1 * q.val = (k 0).val; rw [e2, hk0]; omega
  | ⟨1, _⟩ => show win2_1.index t (1 : Fin 2) * 2048 + 1 * e.val = (k 1).val; rw [e3, hk1]; omega

/-! ## The output's blocks -/

/-- Entry y of the output's block at point t sits at row (t / 5) · 1024 + y₀, column y₁ of the output array. -/
theorem oblk_emb (t : Fin cfg2.N) (y : ((cfg2.win 2).xblock (cfg2.grid.coords t)).Idx) :
    ((((cfg2.win 2).blk t).view.emb y : S8192x1000.Idx) 0).val = t.val / 5 * 1024 + (y 0).val
    ∧ ((((cfg2.win 2).blk t).view.emb y : S8192x1000.Idx) 1).val = (y 1).val := by
  obtain ⟨-, -, -, -, e4, e5⟩ := blockIdx2 t
  constructor
  · show win2_2.index t (0 : Fin 2) * 1024 + 1 * (y 0).val = _; rw [e4]; omega
  · show win2_2.index t (1 : Fin 2) * 1000 + 1 * (y 1).val = _; rw [e5]; omega

/-- An index of the output array is in point t's block iff each coordinate is in the block's range on its axis. -/
theorem mem_oblk (t : Fin cfg2.N) (i : S8192x1000.Idx) :
    i ∈ ((cfg2.win 2).blk t).view.set ↔ ∀ a : Fin 2, win2_2.index t a * S1024x1000.size a ≤ (i a).val ∧ (i a).val < win2_2.index t a * S1024x1000.size a + S1024x1000.size a := by
  show i ∈ ((View.whole main_v2).slice (win2_2.rect t)).set ↔ _
  rw [View.set_slice_whole, Rect.mem_set_unit]
  exact Iff.rfl

/-- Every index of the output array is in the block of a point that writes its block back: row p in that of point 5 · (p / 1024) + 4. -/
theorem ocover (i : S8192x1000.Idx) : ∃ t : Fin cfg2.N, (cfg2.win 2).flush t = true ∧ i ∈ ((cfg2.win 2).blk t).view.set := by
  have hi0 : (i 0).val < 8192 := (i 0).isLt
  have hi1 : (i 1).val < 1000 := (i 1).isLt
  have hN : cfg2.N = 40 := N_2
  obtain ⟨t, ht⟩ : ∃ t : Fin cfg2.N, t.val = 5 * ((i 0).val / 1024) + 4 := ⟨⟨5 * ((i 0).val / 1024) + 4, by rw [hN]; omega⟩, rfl⟩
  obtain ⟨-, -, -, -, e4, e5⟩ := blockIdx2 t
  refine ⟨t, (flush2_2 t).mpr (by rw [ht]; omega), ?_⟩
  rw [mem_oblk]
  intro a
  match a with
  | ⟨0, _⟩ => show win2_2.index t (0 : Fin 2) * 1024 ≤ (i 0).val ∧ (i 0).val < win2_2.index t (0 : Fin 2) * 1024 + 1024; rw [e4, ht]; omega
  | ⟨1, _⟩ => show win2_2.index t (1 : Fin 2) * 1000 ≤ (i 1).val ∧ (i 1).val < win2_2.index t (1 : Fin 2) * 1000 + 1000; rw [e5]; omega

end Cert.KernelIdeal.Ham

end
-- ==== Proof.HamPieces.lean ====
/-
  The matmul region: what the body's stores leave, as the body's named payloads. In case A the accumulator ends at
  the payload "accumulator + partial product" taken at the reset value; in cases B and C at that payload over what
  the point before left; in case C the output buffer ends at the output payload of the updated accumulator.

  Every store writes its whole buffer, so the last store into a buffer decides its contents, and a load of the
  accumulator after a store in the same point reads that store's payload.
-/
import proofs.«172129_j38036230373922_1_alg».proof.Proof.HamBody
import Idealize.ShloMosaic.Lib.Pipeline.Value

set_option maxRecDepth 16384

noncomputable section

namespace Cert.KernelIdeal.Ham

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The stores' offsets are all zero. -/
theorem hz2 : (![0, 0] : Fin 2 → Nat) = fun _ => 0 := funext fun a => by fin_cases a <;> rfl

/-- Case A leaves in the accumulator the partial product added to the reset value. -/
theorem sout2_A_0_eq (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : cond2_0 i) (hc1 : ¬cond2_1 i)
    (x0 : Vec F S1024x2048 .bf16) (x1 : Vec F S1000x2048 .bf16) :
    sout2_A_0 c i arg2 harg2 arg3 harg3 arg4 harg4 arg5 harg5 hc0 hc1 x0 x1 = k2_pay2 (k2_pay1 (F := F)) x0 x1 := by
  unfold sout2_A_0
  rw [View.read_writes_eq_canon _ _ _ (scover2_A_0 c i arg2 harg2 arg3 harg3 arg4 harg4 arg5 harg5 hc0 hc1 x0 x1)]
  unfold kernelRun2_A
  dsimp only
  sl_unfold_words
  rw [View.canon_cons_unit_zero (S := S1024x1000) hz2, View.readCov_unit_zero (S := S1024x1000) _ hz2]
  simp only [View.readAt_eq_ld, harg5.read_unread, harg2.read_unread, harg3.read_unread, View.ld_unit_zero (S := S1024x1000) hz2, View.ld_unit_zero (S := S1024x2048) hz2, View.ld_unit_zero (S := S1000x2048) hz2]

/-- Case B leaves in the accumulator the partial product added to what it held. -/
theorem sout2_B_0_eq (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : ¬cond2_1 i)
    (x0 : Vec F S1024x2048 .bf16) (x1 : Vec F S1000x2048 .bf16) (xs0 : Vec F S1024x1000 .f32) :
    sout2_B_0 c i arg2 harg2 arg3 harg3 arg4 harg4 arg5 harg5 hc0 hc1 x0 x1 xs0 = k2_pay2 xs0 x0 x1 := by
  unfold sout2_B_0
  rw [View.read_writes_eq_canon _ _ _ (scover2_B_0 c i arg2 harg2 arg3 harg3 arg4 harg4 arg5 harg5 hc0 hc1 x0 x1 xs0)]
  unfold kernelRun2_B
  dsimp only
  sl_unfold_words
  rw [View.canon_unit_zero hz2]
  simp only [View.readAt_eq_ld, harg5.read_unread, harg2.read_unread, harg3.read_unread, View.ld_unit_zero (S := S1024x1000) hz2, View.ld_unit_zero (S := S1024x2048) hz2, View.ld_unit_zero (S := S1000x2048) hz2]

/-- Case C leaves in the accumulator the partial product added to what it held, -/
theorem sout2_C_0_eq (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) :
    sout2_C_0 c i arg2 harg2 arg3 harg3 arg4 harg4 arg5 harg5 hc0 hc1 x0 x1 xs0 = k2_pay2 xs0 x0 x1 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero hz2]
  simp only [View.readAt_eq_ld, harg5.read_unread, harg2.read_unread, harg3.read_unread, View.ld_unit_zero (S := S1024x1000) hz2, View.ld_unit_zero (S := S1024x2048) hz2, View.ld_unit_zero (S := S1000x2048) hz2]

/-- and in the output buffer the output payload of that updated accumulator. -/
theorem out2_C_2_eq (c : Dev nD) (i : grid2.Coords) (arg2 : Memref sig .tc .vmem S1024x2048 .bf16) (harg2 : arg2.IsWhole) (arg3 : Memref sig .tc .vmem S1000x2048 .bf16) (harg3 : arg3.IsWhole) (arg4 : Memref sig .tc .vmem S1024x1000 .f32) (harg4 : arg4.IsWhole) (arg5 : Memref sig .tc .vmem S1024x1000 .f32) (harg5 : arg5.IsWhole) (hc0 : ¬cond2_0 i) (hc1 : cond2_1 i)
    (x0 : Vec F S1024x2048 .bf16) (x1 : Vec F S1000x2048 .bf16) (xs0 : Vec F S1024x1000 .f32) :
    out2_C_2 c i arg2 harg2 arg3 harg3 arg4 harg4 arg5 harg5 hc0 hc1 x0 x1 xs0 = k2_pay3 (k2_pay2 xs0 x0 x1) := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero hz2, View.readCov_unit_zero (S := S1024x1000) _ hz2]
  simp only [View.readAt_eq_ld, harg5.read_unread, harg2.read_unread, harg3.read_unread, View.ld_unit_zero (S := S1024x1000) hz2, View.ld_unit_zero (S := S1024x2048) hz2, View.ld_unit_zero (S := S1000x2048) hz2]

/-! ## Point by point -/

/-- After a point of case A the accumulator holds the first partial product added to the reset value. -/
theorem acc_A (c : Dev nD) (t : Fin cfg2.N) (h0 : t.val % 5 = 0) :
    (outsAt2 V c t.val t.isLt).2 = k2_pay2 (k2_pay1 (F := F)) (iblk2 V c 0 t) (iblk2 V c 1 t) := by
  have h1 : ¬t.val % 5 = 4 := by omega
  rw [outsAt2_A V c t h0 h1]
  dsimp only
  exact sout2_A_0_eq c _ _ _ _ _ _ _ _ _ _ _ _ _

/-- After a point of case B or C the accumulator holds this point's partial product added to what the point before left. -/
theorem acc_BC (c : Dev nD) (t : Fin cfg2.N) (h0 : ¬t.val % 5 = 0) :
    (outsAt2 V c t.val t.isLt).2 = k2_pay2 (outsAt2 V c (t.val - 1) (Nat.lt_of_le_of_lt (Nat.sub_le _ _) t.isLt)).2 (iblk2 V c 0 t) (iblk2 V c 1 t) := by
  by_cases h1 : t.val % 5 = 4
  · rw [outsAt2_C V c t h0 h1]
    dsimp only
    exact sout2_C_0_eq c _ _ _ _ _ _ _ _ _ _ _ _ _ _
  · rw [outsAt2_B V c t h0 h1]
    dsimp only
    exact sout2_B_0_eq c _ _ _ _ _ _ _ _ _ _ _ _ _ _

/-- At a point of case C the output buffer holds the output payload of the accumulator as the point leaves it. -/
theorem out_C (c : Dev nD) (t : Fin cfg2.N) (h1 : t.val % 5 = 4) :
    (outsAt2 V c t.val t.isLt).1 = k2_pay3 (outsAt2 V c t.val t.isLt).2 := by
  have h0 : ¬t.val % 5 = 0 := by omega
  rw [outsAt2_C V c t h0 h1]
  dsimp only
  rw [sout2_C_0_eq, out2_C_2_eq]

end Cert.KernelIdeal.Ham

end
-- ==== Proof.HamAlgebra.lean ====
/-
  The Hamming matmul kernel's three stored values, read entry by entry at the ideal instance
  (a float is an extended real), and the regrouping of a sum over 10240 terms into 5 chunks of 2048.

  * the first stored value is the zero splat: every entry is 0;
  * the second is the accumulator plus the product of the two operand blocks contracted along
    their second axis: entry (r, q) is acc(r, q) + Σ_e a(r, e) · b(q, e);
  * the third adds a constant to every entry and scales by another: (x + c₁) · c₂;
  * a sum over d < 10240 is the sum over k < 5 of the sums over e < 2048 at d = k · 2048 + e.
-/
import proofs.«172129_j38036230373922_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Mathlib.Data.Fintype.BigOperators
import Mathlib.Logic.Equiv.Fin.Basic

noncomputable section

namespace Cert.KernelIdeal.Ham

open Idealize.ShloMosaic Idealize.ShloMosaic.ValueIdx Cert.KernelIdeal Cert.KernelIdeal.Gen

/-! ## The zero splat -/

/-- Every entry of the initial accumulator value is the extended real 0. -/
theorem pay1_apply (j : S1024x1000.Idx) : k2_pay1 (F := Ideal) j = 0 := by
  unfold k2_pay1
  rw [shapeCast_self]
  show Ideal.ofBits .f32 0x00000000#32 = 0
  exact Ideal.ofBits_zero_f32

/-! ## The contraction's operand indices

  The dot contracts axis 1 of both operands and has no batch axis: at output index i = (r, q) and
  contraction index k the left operand is read at (r, k) and the right operand at (q, k). -/

/-- Axis 0 of the left operand's index is the output's row. -/
theorem lhs_dot_0 (i : S1024x1000.Idx) (q : dot_S1024x2048_S1000x2048_S1024x1000_1_1_0_0_n_n.contr.Idx) :
    (dot_S1024x2048_S1000x2048_S1024x1000_1_1_0_0_n_n.lhsIdx i q 0).val = (i 0).val := by
  unfold DotDims.lhsIdx
  rw [dif_neg (show ¬(0 : Fin S1024x2048.rank) ∈ dot_S1024x2048_S1000x2048_S1024x1000_1_1_0_0_n_n.lhsBatch by decide), dif_pos (show (0 : Fin S1024x2048.rank) ∈ dot_S1024x2048_S1000x2048_S1024x1000_1_1_0_0_n_n.lhsNonContracting by decide)]
  rfl
/-- Axis 1 of the left operand's index is the contraction coordinate. -/
theorem lhs_dot_1 (i : S1024x1000.Idx) (q : dot_S1024x2048_S1000x2048_S1024x1000_1_1_0_0_n_n.contr.Idx) :
    (dot_S1024x2048_S1000x2048_S1024x1000_1_1_0_0_n_n.lhsIdx i q 1).val = (q ⟨0, by decide⟩).val :=
  dot_S1024x2048_S1000x2048_S1024x1000_1_1_0_0_n_n.lhsIdx_val_of_single rfl i q
/-- Axis 0 of the right operand's index is the output's column. -/
theorem rhs_dot_0 (i : S1024x1000.Idx) (q : dot_S1024x2048_S1000x2048_S1024x1000_1_1_0_0_n_n.contr.Idx) :
    (dot_S1024x2048_S1000x2048_S1024x1000_1_1_0_0_n_n.rhsIdx i q 0).val = (i 1).val := by
  unfold DotDims.rhsIdx
  rw [dif_neg (show ¬(0 : Fin S1000x2048.rank) ∈ dot_S1024x2048_S1000x2048_S1024x1000_1_1_0_0_n_n.rhsBatch by decide), dif_pos (show (0 : Fin S1000x2048.rank) ∈ dot_S1024x2048_S1000x2048_S1024x1000_1_1_0_0_n_n.rhsNonContracting by decide)]
  rfl
/-- Axis 1 of the right operand's index is the contraction coordinate. -/
theorem rhs_dot_1 (i : S1024x1000.Idx) (q : dot_S1024x2048_S1000x2048_S1024x1000_1_1_0_0_n_n.contr.Idx) :
    (dot_S1024x2048_S1000x2048_S1024x1000_1_1_0_0_n_n.rhsIdx i q 1).val = (q ⟨0, by decide⟩).val :=
  dot_S1024x2048_S1000x2048_S1024x1000_1_1_0_0_n_n.rhsIdx_val_of_single rfl i q

/-! ## The accumulation step -/

/-- Entry (r, q) of the updated accumulator: the old entry plus Σ_e a(r, e) · b(q, e). -/
theorem pay2_apply (acc : Vec Ideal S1024x1000 .f32) (a : Vec Ideal S1024x2048 .bf16) (b : Vec Ideal S1000x2048 .bf16) (r : Fin 1024) (q : Fin 1000) :
    k2_pay2 (F := Ideal) acc a b (ix2 r q) = acc (ix2 r q) + ∑ e : Fin 2048, a (ix2 r e) * b (ix2 q e) := by
  unfold k2_pay2
  simp only [shapeCast_self, matmul]
  rw [addf_apply, Ideal.matmul_constant_zero_apply, ← Equiv.sum_comp (contrEquiv1 dot_S1024x2048_S1000x2048_S1024x1000_1_1_0_0_n_n 2048 rfl rfl).symm]
  refine congrArg (acc (ix2 r q) + ·) (Finset.sum_congr rfl fun k _ => ?_)
  have hk := contrEquiv1_symm_val dot_S1024x2048_S1000x2048_S1024x1000_1_1_0_0_n_n 2048 rfl rfl k
  have el : dot_S1024x2048_S1000x2048_S1024x1000_1_1_0_0_n_n.lhsIdx (ix2 r q) ((contrEquiv1 dot_S1024x2048_S1000x2048_S1024x1000_1_1_0_0_n_n 2048 rfl rfl).symm k) = ix2 r k := funext fun c => Fin.ext (by
    match c with
    | ⟨0, _⟩ => exact lhs_dot_0 _ _
    | ⟨1, _⟩ => exact (lhs_dot_1 _ _).trans hk)
  have er : dot_S1024x2048_S1000x2048_S1024x1000_1_1_0_0_n_n.rhsIdx (ix2 r q) ((contrEquiv1 dot_S1024x2048_S1000x2048_S1024x1000_1_1_0_0_n_n 2048 rfl rfl).symm k) = ix2 q k := funext fun c => Fin.ext (by
    match c with
    | ⟨0, _⟩ => exact rhs_dot_0 _ _
    | ⟨1, _⟩ => exact (rhs_dot_1 _ _).trans hk)
  rw [el, er]

/-! ## The final affine map -/

/-- Every entry of the output is (x + c₁) · c₂ with the two constants kept as their words. -/
theorem pay3_apply (x : Vec Ideal S1024x1000 .f32) (j : S1024x1000.Idx) :
    k2_pay3 (F := Ideal) x j = (x j + (FloatOps.ofBits (F := Ideal) .f32 0x46200000#32 : EReal)) * (FloatOps.ofBits (F := Ideal) .f32 0x3F000000#32 : EReal) := rfl

/-! ## Five chunks of 2048 make 10240 -/

/-- A sum over d < 10240 regrouped by d = k · 2048 + e with k < 5 and e < 2048. -/
theorem sum_chunks (f : ℕ → EReal) : ∑ k : Fin 5, ∑ e : Fin 2048, f (k.val * 2048 + e.val) = ∑ d : Fin 10240, f d.val := by
  rw [← Fintype.sum_prod_type' (fun (k : Fin 5) (e : Fin 2048) => f (k.val * 2048 + e.val))]
  rw [← Equiv.sum_comp (finProdFinEquiv (m := 5) (n := 2048)) (fun d : Fin (5 * 2048) => f d.val)]
  refine Finset.sum_congr rfl fun p _ => ?_
  show f (p.1.val * 2048 + p.2.val) = f (p.2.val + 2048 * p.1.val)
  congr 1
  omega

end Cert.KernelIdeal.Ham

end
-- ==== Proof.HamValue.lean ====
/-
  The matmul region of the kernel program: the VALUE of its output array, at the ideal instance (a float is an
  extended real), as one function of the two operand arrays.

  At the point t = 5 · i + k the accumulator is reset (k = 0) or kept (k > 0) and the product of the two operand
  blocks, contracted along the depth chunk k, is added to it: after the point its entry (r, q) is the sum over the
  chunks 0 … k of Σ_e a(1024 · i + r, 2048 · k' + e) · b(q, 2048 · k' + e). At k = 4 the output block is stored with
  (accumulator + c₁) · c₂ and written back; the five chunks' sums make the sum over all 10240 depth positions, and
  the eight written blocks cover the output array.
-/
import proofs.«172129_j38036230373922_1_alg».proof.Proof.HamBlocks
import proofs.«172129_j38036230373922_1_alg».proof.Proof.HamPieces
import proofs.«172129_j38036230373922_1_alg».proof.Proof.HamAlgebra
import proofs.«172129_j38036230373922_1_alg».proof.Proof.Gen.ReferenceIdeal.Read

set_option maxRecDepth 16384

noncomputable section

namespace Cert.KernelIdeal.Ham

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the contents of every unscoped buffer when the region is entered
variable (V : (c : Dev nD) → (b : Ref sig .tc) → Buf (Elt Ideal) ((c : Thread nD τ).loc b))

/-! ## The output as a function of the operands -/

/-- every entry: the dot product over all 10240 depth positions, plus 10240, halved -/
def hamOut (a : S8192x10240.Idx → EReal) (b : S1000x10240.Idx → EReal) : S8192x1000.Idx → EReal := fun j =>
  ((∑ d : Fin 10240, a (Cert.ReferenceIdeal.Read.lidx_main_v8 j d) * b (Cert.ReferenceIdeal.Read.ridx_main_v8 j d)) + (FloatOps.ofBits (F := Ideal) .f32 0x46200000#32 : EReal)) * (FloatOps.ofBits (F := Ideal) .f32 0x3F000000#32 : EReal)

/-- The dot product's term at depth position d for the output entry j, by d as a natural number (zero past the end). -/
def prodAt (a : S8192x10240.Idx → EReal) (b : S1000x10240.Idx → EReal) (j : S8192x1000.Idx) (d : ℕ) : EReal :=
  if h : d < 10240 then a (Cert.ReferenceIdeal.Read.lidx_main_v8 j ⟨d, h⟩) * b (Cert.ReferenceIdeal.Read.ridx_main_v8 j ⟨d, h⟩) else 0

theorem prodAt_val (a : S8192x10240.Idx → EReal) (b : S1000x10240.Idx → EReal) (j : S8192x1000.Idx) (d : Fin 10240) :
    prodAt a b j d.val = a (Cert.ReferenceIdeal.Read.lidx_main_v8 j d) * b (Cert.ReferenceIdeal.Read.ridx_main_v8 j d) := by
  unfold prodAt
  rw [dif_pos d.isLt]

/-- The output entry from the terms by natural depth position. -/
theorem hamOut_apply (a : S8192x10240.Idx → EReal) (b : S1000x10240.Idx → EReal) (j : S8192x1000.Idx) :
    hamOut a b j = ((∑ d : Fin 10240, prodAt a b j d.val) + (FloatOps.ofBits (F := Ideal) .f32 0x46200000#32 : EReal)) * (FloatOps.ofBits (F := Ideal) .f32 0x3F000000#32 : EReal) := by
  unfold hamOut
  rw [Finset.sum_congr rfl (fun d _ => prodAt_val a b j d)]

/-! ## One depth chunk's partial dot product -/

/-- The left operand's block at point n, as a 1024 × 2048 vector of extended reals. -/
abbrev lblk (c : Dev nD) (n : ℕ) (hn : n < cfg2.N) : Vec Ideal S1024x2048 .bf16 := iblk2 V c 0 ⟨n, hn⟩
/-- The right operand's block at point n, as a 1000 × 2048 vector of extended reals. -/
abbrev rblk (c : Dev nD) (n : ℕ) (hn : n < cfg2.N) : Vec Ideal S1000x2048 .bf16 := iblk2 V c 1 ⟨n, hn⟩

/-- The product of the two operand blocks at point n, contracted along the chunk, at block entry (r, q): the terms of
    the output entry j = ((n / 5) · 1024 + r, q) at the depth positions (n % 5) · 2048 … + 2047. -/
theorem chunk_eq (c : Dev nD) (n : ℕ) (hn : n < cfg2.N) (j : S8192x1000.Idx) (r : Fin 1024) (q : Fin 1000)
    (h0 : (j 0).val = n / 5 * 1024 + r.val) (h1 : (j 1).val = q.val) :
    ∑ e : Fin 2048, lblk V c n hn (ix2 r e) * rblk V c n hn (ix2 q e)
      = ∑ e : Fin 2048, prodAt (V c main_v0) (V c main_v1) j (n % 5 * 2048 + e.val) := by
  refine Finset.sum_congr rfl fun e _ => ?_
  have he : e.val < 2048 := e.isLt
  have hd : n % 5 * 2048 + e.val < 10240 := by omega
  unfold prodAt
  rw [dif_pos hd]
  exact congrArg₂ (· * ·)
    (lblk_apply V c ⟨n, hn⟩ r e (Cert.ReferenceIdeal.Read.lidx_main_v8 j ⟨n % 5 * 2048 + e.val, hd⟩) h0 rfl)
    (rblk_apply V c ⟨n, hn⟩ q e (Cert.ReferenceIdeal.Read.ridx_main_v8 j ⟨n % 5 * 2048 + e.val, hd⟩) h1 rfl)

/-! ## The accumulator after each point -/

/-- After a point of the first depth chunk: that chunk's partial dot product. -/
theorem acc_first (c : Dev nD) (n : ℕ) (hn : n < cfg2.N) (h5 : n % 5 = 0) (j : S8192x1000.Idx) (r : Fin 1024) (q : Fin 1000)
    (h0 : (j 0).val = n / 5 * 1024 + r.val) (h1 : (j 1).val = q.val) :
    (outsAt2 V c n hn).2 (ix2 r q) = ∑ e : Fin 2048, prodAt (V c main_v0) (V c main_v1) j (n % 5 * 2048 + e.val) := by
  refine (congrFun (acc_A V c ⟨n, hn⟩ h5) (ix2 r q)).trans ?_
  refine (pay2_apply (k2_pay1 (F := Ideal)) (lblk V c n hn) (rblk V c n hn) r q).trans ?_
  rw [pay1_apply, zero_add]
  exact chunk_eq V c n hn j r q h0 h1

/-- After a point of a later depth chunk: that chunk's partial dot product added to what the point before left. -/
theorem acc_next (c : Dev nD) (n : ℕ) (hn : n + 1 < cfg2.N) (h5 : ¬(n + 1) % 5 = 0) (j : S8192x1000.Idx) (r : Fin 1024) (q : Fin 1000)
    (h0 : (j 0).val = (n + 1) / 5 * 1024 + r.val) (h1 : (j 1).val = q.val) :
    (outsAt2 V c (n + 1) hn).2 (ix2 r q) = (outsAt2 V c n (Nat.lt_of_succ_lt hn)).2 (ix2 r q) + ∑ e : Fin 2048, prodAt (V c main_v0) (V c main_v1) j ((n + 1) % 5 * 2048 + e.val) := by
  refine (congrFun (acc_BC V c ⟨n + 1, hn⟩ h5) (ix2 r q)).trans ?_
  refine (pay2_apply (outsAt2 V c n (Nat.lt_of_succ_lt hn)).2 (lblk V c (n + 1) hn) (rblk V c (n + 1) hn) r q).trans ?_
  rw [chunk_eq V c (n + 1) hn j r q h0 h1]

/-- After the point n the accumulator's entry (r, q) is the sum over the depth chunks 0 … n % 5 of the chunk's partial
    dot product for the output entry j = ((n / 5) · 1024 + r, q). -/
theorem acc_eq (c : Dev nD) (j : S8192x1000.Idx) (q : Fin 1000) (h1 : (j 1).val = q.val) :
    ∀ (n : ℕ) (hn : n < cfg2.N) (r : Fin 1024), (j 0).val = n / 5 * 1024 + r.val →
      (outsAt2 V c n hn).2 (ix2 r q) = ∑ k ∈ Finset.range (n % 5 + 1), ∑ e : Fin 2048, prodAt (V c main_v0) (V c main_v1) j (k * 2048 + e.val) := by
  intro n
  induction n with
  | zero =>
    intro hn r h0
    rw [show 0 % 5 + 1 = 1 from rfl, Finset.sum_range_one]
    exact acc_first V c 0 hn rfl j r q h0 h1
  | succ n ih =>
    intro hn r h0
    by_cases h5 : (n + 1) % 5 = 0
    · have h := acc_first V c (n + 1) hn h5 j r q h0 h1
      rw [h5] at h ⊢
      rw [Nat.zero_add, Finset.sum_range_one]
      exact h
    · have e5 : (n + 1) % 5 = n % 5 + 1 := by omega
      rw [acc_next V c n hn h5 j r q h0 h1, ih (Nat.lt_of_succ_lt hn) r (by omega), e5, Finset.sum_range_succ _ (n % 5 + 1)]

/-! ## The written block -/

/-- At a point of the last depth chunk the stored output block's entry (r, q) is the output function at j = ((n / 5) · 1024 + r, q):
    the five chunks' sums are the sum over all 10240 depth positions. -/
theorem out_entry (c : Dev nD) (n : ℕ) (hn : n < cfg2.N) (h4 : n % 5 = 4) (j : S8192x1000.Idx) (r : Fin 1024) (q : Fin 1000)
    (h0 : (j 0).val = n / 5 * 1024 + r.val) (h1 : (j 1).val = q.val) :
    k2_pay3 (F := Ideal) (outsAt2 V c n hn).2 (ix2 r q) = hamOut (V c main_v0) (V c main_v1) j := by
  refine (pay3_apply (outsAt2 V c n hn).2 (ix2 r q)).trans ?_
  rw [acc_eq V c j q h1 n hn r h0, h4, show (4 : ℕ) + 1 = 5 from rfl,
    Finset.sum_range (fun k => ∑ e : Fin 2048, prodAt (V c main_v0) (V c main_v1) j (k * 2048 + e.val)),
    sum_chunks (prodAt (V c main_v0) (V c main_v1) j), hamOut_apply]

/-- The same at any entry y of the block. -/
theorem out_entry' (c : Dev nD) (n : ℕ) (hn : n < cfg2.N) (h4 : n % 5 = 4) (j : S8192x1000.Idx) (y : S1024x1000.Idx)
    (h0 : (j 0).val = n / 5 * 1024 + (y 0).val) (h1 : (j 1).val = (y 1).val) :
    k2_pay3 (F := Ideal) (outsAt2 V c n hn).2 y = hamOut (V c main_v0) (V c main_v1) j := by
  rw [eq_ix2 y]
  exact out_entry V c n hn h4 j (y 0) (y 1) h0 h1

/-- WHAT POINT t WRITES BACK is its block of the output function of the operand arrays as the region finds them. -/
theorem flushed2_eq (c : Dev nD) (t : Fin cfg2.N) (hf : (cfg2.win 2).flush t = true) :
    (dat2 (F := Ideal) V c).flushed 2 t = ((cfg2.win 2).blk t).view.read (Elt Ideal) (hamOut (V c main_v0) (V c main_v1)) := by
  have h4 : t.val % 5 = 4 := (flush2_2 t).mp hf
  show (cfg2.win 2).cut (grid2.coords t) ((dat2 (F := Ideal) V c).after 2 t) = _
  rw [after2_2, out_C V c t h4]
  funext y
  rw [View.read_apply]
  obtain ⟨hy0, hy1⟩ := oblk_emb t y
  exact out_entry' V c t.val t.isLt h4 (((cfg2.win 2).blk t).view.emb y) ((cfg2.win 2).xinj (grid2.coords t) y) hy0 hy1

/-! ## The array after the run -/

/-- THE OUTPUT ARRAY after the region: the output function of the two operand arrays. -/
theorem final2 (c : Dev nD) :
    (dat2 (F := Ideal) V c).arrAt 2 cfg2.N = hamOut (V c main_v0) (V c main_v1) :=
  (dat2 (F := Ideal) V c).arrAt_eq_of_cover 2 (hamOut (V c main_v0) (V c main_v1)) (fun t hf => flushed2_eq V c t hf) (fun i => ocover i)

end Cert.KernelIdeal.Ham

end
-- ==== Proof.SignQValue.lean ====
/-
  The query sign-binarize region of the kernel program, second half: the output array after the region as one
  function of the input array.

  Each of the 16 × 5 = 80 points writes back one 512 × 2048 tile of the bf16 array main_v0, and what it writes
  is the entrywise sign map of the tile of main_arg0 at the same place. The tiles of distinct points sit at distinct
  block positions and together fill the 8192 × 10240 array, so after the last point the whole array is the
  entrywise sign map of main_arg0: +1 where the entry is > 0, −1 otherwise, narrowed to bf16. Over the extended
  reals narrowing is the identity and this map is the reference program's stage select (x > 0) 1 (−1).
-/
import proofs.«172129_j38036230373922_1_alg».proof.Proof.SignQ
import proofs.«172129_j38036230373922_1_alg».proof.Proof.Gen.ReferenceIdeal.Read
import Idealize.ShloMosaic.Lib.Pipeline.Value

set_option maxRecDepth 16384

noncomputable section

namespace Cert.KernelIdeal.SignQ

open Idealize.ShloMosaic Idealize.ShloMosaic.TcCoe Idealize.SL.Sem
open Idealize.ShloMosaic.Pipeline (Dat)
open Cert.KernelIdeal Cert.KernelIdeal.Gen

variable {F : FTy → Type} [FloatOps F]

-- the contents of every unscoped buffer when the region is entered
variable (V : (c : Dev nD) → (b : Ref sig .tc) → Buf (Elt F) ((c : Thread nD τ).loc b))

/-! ## The payload, entry by entry -/

theorem hz0 : (![0, 0] : Fin 2 → Nat) = fun _ => 0 := funext fun a => by fin_cases a <;> rfl

/-- The sign map on the whole 8192 × 10240 array: at each entry +1 (the f32 word 0x3F800000) where the input entry
    is > 0 (the f32 word 0x00000000) and −1 (the word 0xBF800000) otherwise, narrowed from f32 to bf16. The same
    pointwise operations the body applies to a tile, here at the array's shape. -/
abbrev signQ (x : S8192x10240.Idx → Elt F .f32) : S8192x10240.Idx → Elt F .bf16 :=
  truncf .bf16
    (select (cmpf .ogt x (broadcast S8192x10240 (Scalar.ofBits .f32 0x00000000#32 : F .f32)))
      (broadcast S8192x10240 (Scalar.ofBits .f32 0x3F800000#32 : F .f32))
      (broadcast S8192x10240 (Scalar.ofBits .f32 0xBF800000#32 : F .f32)))
    bitsLt_bf16_f32

/-- One entry of the sign map depends on the same entry of the input only. -/
theorem signQ_entry (x : S8192x10240.Idx → Elt F .f32) (i : S8192x10240.Idx) :
    signQ x i = FloatOps.truncf .bf16 bitsLt_bf16_f32
      (Scalar.select (FloatOps.cmpf .ogt (x i) (Scalar.ofBits .f32 0x00000000#32 : F .f32))
        (Scalar.ofBits .f32 0x3F800000#32 : F .f32) (Scalar.ofBits .f32 0xBF800000#32 : F .f32)) := rfl

/-- The body's payload on a tile is the same entrywise map of the tile. -/
theorem pay0_entry (x0 : Vec F S512x2048 .f32) (j : S512x2048.Idx) :
    k0_pay1 x0 j = FloatOps.truncf .bf16 bitsLt_bf16_f32
      (Scalar.select (FloatOps.cmpf .ogt (x0 j) (Scalar.ofBits .f32 0x00000000#32 : F .f32))
        (Scalar.ofBits .f32 0x3F800000#32 : F .f32) (Scalar.ofBits .f32 0xBF800000#32 : F .f32)) := rfl

/-! ## The tiles: where they sit and that they fill the array -/

/-- The input tile and the output tile of a point sit at the same block position, and that position is inside
    the 16 × 5 grid of blocks. -/
theorem sameTile0 : ∀ t : Fin cfg0.N, win0_0.index t (0 : Fin 2) = win0_1.index t (0 : Fin 2)
    ∧ win0_0.index t (1 : Fin 2) = win0_1.index t (1 : Fin 2)
    ∧ win0_1.index t (0 : Fin 2) ≤ 15 ∧ win0_1.index t (1 : Fin 2) ≤ 4 :=
  (by decide +kernel : ∀ t : Fin grid0.N, _)

/-- Every block position of the 16 × 5 grid of blocks is some point's output tile. -/
theorem everyTile0 : ∀ (q0 : Fin 16) (q1 : Fin 5), ∃ t : Fin cfg0.N, win0_1.index t = ![q0.val, q1.val] :=
  (by decide +kernel : ∀ (q0 : Fin 16) (q1 : Fin 5), ∃ t : Fin grid0.N, win0_1.index t = ![q0.val, q1.val])

/-- What point `t` writes back is its tile of the sign map of the input array as the region finds it. -/
theorem flushed0_1_eq (c : Dev nD) (t : Fin cfg0.N) :
    (dat0 V c).flushed 1 t = ((cfg0.win 1).blk t).view.read (Elt F) (signQ (V c main_arg0)) := by
  show (cfg0.win 1).cut (grid0.coords t) ((dat0 V c).after 1 t) = _
  rw [after0_1]
  unfold out0_1
  rw [View.canon_unit_zero hz0]
  simp only [View.ld_unit_zero (S := S512x2048) hz0]
  obtain ⟨e0, e1, e2, e3⟩ := sameTile0 t
  funext j
  show k0_pay1 (fun j => V c main_arg0 (((cfg0.win 0).blk t).view.emb j)) j = signQ (V c main_arg0) (((cfg0.win 1).blk t).view.emb j)
  rw [pay0_entry, signQ_entry]
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; have hj : (j 0).val < 512 := (j 0).isLt; omega
    | ⟨1, _⟩ => show win0_0.index t (1 : Fin 2) * 2048 + 1 * (j 1).val = win0_1.index t (1 : Fin 2) * 2048 + 1 * (j 1).val; have hj : (j 1).val < 2048 := (j 1).isLt; omega
  rw [h0]

/-- An index of the array is in point `t`'s output tile iff each coordinate is in the tile's range on its axis. -/
theorem mem_tile0 (t : Fin cfg0.N) (i : S8192x10240.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v0).slice (win0_1.rect t)).set ↔ _
  rw [View.set_slice_whole, Rect.mem_set_unit]
  exact Iff.rfl

/-- Every index of the output array is in some point's tile: the tiles fill the array. -/
theorem covered0 (i : S8192x10240.Idx) :
    ∃ t : Fin cfg0.N, (cfg0.win 1).flush t = true ∧ i ∈ ((cfg0.win 1).blk t).view.set := by
  have hi0 : (i 0).val < 8192 := (i 0).isLt
  have hi1 : (i 1).val < 10240 := (i 1).isLt
  obtain ⟨t, ht⟩ := everyTile0 ⟨(i 0).val / 512, by omega⟩ ⟨(i 1).val / 2048, by omega⟩
  have q0 : win0_1.index t (0 : Fin 2) = (i 0).val / 512 := congrFun ht 0
  have q1 : win0_1.index t (1 : Fin 2) = (i 1).val / 2048 := congrFun ht 1
  refine ⟨t, flush0_1 t, ?_⟩
  rw [mem_tile0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-! ## The output array after the region -/

/-- After the region the output array is the sign map of the input array as the region found it. -/
theorem final0 (c : Dev nD) : (dat0 V c).arrAt 1 cfg0.N = signQ (V c main_arg0) :=
  (dat0 V c).arrAt_eq_of_cover 1 (signQ (V c main_arg0)) (fun t _ => flushed0_1_eq V c t) covered0

/-! ## At the ideal reals -/

/-- Over the extended reals, where narrowing to bf16 changes nothing, the sign map is the reference program's
    own stage: select (x > 0) 1 (−1), entry by entry, with the same constant words on both sides. -/
theorem signQ_eq_ref (x : S8192x10240.Idx → Elt Ideal .f32) :
    signQ (F := Ideal) x = Cert.ReferenceIdeal.Read.val_main_v3 (F := Ideal) x := by
  funext i
  rw [signQ_entry, Cert.ReferenceIdeal.Read.val_main_v3_apply, Cert.ReferenceIdeal.Read.val_main_v2_apply,
    Cert.ReferenceIdeal.Read.val_main_v1_apply, Cert.ReferenceIdeal.Read.val_main_v0_apply, Cert.ReferenceIdeal.Read.val_main_cst_apply,
    Cert.ReferenceIdeal.Read.val_main_call0_v0_apply, Cert.ReferenceIdeal.Read.val_main_cst_0_apply,
    Cert.ReferenceIdeal.Read.val_main_call0_v1_apply, Cert.ReferenceIdeal.Read.val_main_cst_1_apply]
  rfl

end Cert.KernelIdeal.SignQ

end
-- ==== Proof.SignPValue.lean ====
/-
  The prototype sign-binarize region of the kernel program, second half: the output array after the region as one
  function of the input array.

  Each of the 1 × 5 = 5 points writes back one 1000 × 2048 tile of the bf16 array main_v1, and what it writes
  is the entrywise sign map of the tile of main_arg1 at the same place. The tiles of distinct points sit at distinct
  block positions and together fill the 1000 × 10240 array, so after the last point the whole array is the
  entrywise sign map of main_arg1: +1 where the entry is > 0, −1 otherwise, narrowed to bf16. Over the extended
  reals narrowing is the identity and this map is the reference program's stage select (x > 0) 1 (−1).
-/
import proofs.«172129_j38036230373922_1_alg».proof.Proof.SignP
import proofs.«172129_j38036230373922_1_alg».proof.Proof.Gen.ReferenceIdeal.Read
import Idealize.ShloMosaic.Lib.Pipeline.Value

set_option maxRecDepth 16384

noncomputable section

namespace Cert.KernelIdeal.SignP

open Idealize.ShloMosaic Idealize.ShloMosaic.TcCoe Idealize.SL.Sem
open Idealize.ShloMosaic.Pipeline (Dat)
open Cert.KernelIdeal Cert.KernelIdeal.Gen

variable {F : FTy → Type} [FloatOps F]

-- the contents of every unscoped buffer when the region is entered
variable (V : (c : Dev nD) → (b : Ref sig .tc) → Buf (Elt F) ((c : Thread nD τ).loc b))

/-! ## The payload, entry by entry -/

theorem hz1 : (![0, 0] : Fin 2 → Nat) = fun _ => 0 := funext fun a => by fin_cases a <;> rfl

/-- The sign map on the whole 1000 × 10240 array: at each entry +1 (the f32 word 0x3F800000) where the input entry
    is > 0 (the f32 word 0x00000000) and −1 (the word 0xBF800000) otherwise, narrowed from f32 to bf16. The same
    pointwise operations the body applies to a tile, here at the array's shape. -/
abbrev signP (x : S1000x10240.Idx → Elt F .f32) : S1000x10240.Idx → Elt F .bf16 :=
  truncf .bf16
    (select (cmpf .ogt x (broadcast S1000x10240 (Scalar.ofBits .f32 0x00000000#32 : F .f32)))
      (broadcast S1000x10240 (Scalar.ofBits .f32 0x3F800000#32 : F .f32))
      (broadcast S1000x10240 (Scalar.ofBits .f32 0xBF800000#32 : F .f32)))
    bitsLt_bf16_f32

/-- One entry of the sign map depends on the same entry of the input only. -/
theorem signP_entry (x : S1000x10240.Idx → Elt F .f32) (i : S1000x10240.Idx) :
    signP x i = FloatOps.truncf .bf16 bitsLt_bf16_f32
      (Scalar.select (FloatOps.cmpf .ogt (x i) (Scalar.ofBits .f32 0x00000000#32 : F .f32))
        (Scalar.ofBits .f32 0x3F800000#32 : F .f32) (Scalar.ofBits .f32 0xBF800000#32 : F .f32)) := rfl

/-- The body's payload on a tile is the same entrywise map of the tile. -/
theorem pay1_entry (x0 : Vec F S1000x2048 .f32) (j : S1000x2048.Idx) :
    k1_pay1 x0 j = FloatOps.truncf .bf16 bitsLt_bf16_f32
      (Scalar.select (FloatOps.cmpf .ogt (x0 j) (Scalar.ofBits .f32 0x00000000#32 : F .f32))
        (Scalar.ofBits .f32 0x3F800000#32 : F .f32) (Scalar.ofBits .f32 0xBF800000#32 : F .f32)) := rfl

/-! ## The tiles: where they sit and that they fill the array -/

/-- The input tile and the output tile of a point sit at the same block position, and that position is inside
    the 1 × 5 grid of blocks. -/
theorem sameTile1 : ∀ t : Fin cfg1.N, win1_0.index t (0 : Fin 2) = win1_1.index t (0 : Fin 2)
    ∧ win1_0.index t (1 : Fin 2) = win1_1.index t (1 : Fin 2)
    ∧ win1_1.index t (0 : Fin 2) ≤ 0 ∧ win1_1.index t (1 : Fin 2) ≤ 4 :=
  (by decide +kernel : ∀ t : Fin grid1.N, _)

/-- Every block position of the 1 × 5 grid of blocks is some point's output tile. -/
theorem everyTile1 : ∀ (q0 : Fin 1) (q1 : Fin 5), ∃ t : Fin cfg1.N, win1_1.index t = ![q0.val, q1.val] :=
  (by decide +kernel : ∀ (q0 : Fin 1) (q1 : Fin 5), ∃ t : Fin grid1.N, win1_1.index t = ![q0.val, q1.val])

/-- What point `t` writes back is its tile of the sign map of the input array as the region finds it. -/
theorem flushed1_1_eq (c : Dev nD) (t : Fin cfg1.N) :
    (dat1 V c).flushed 1 t = ((cfg1.win 1).blk t).view.read (Elt F) (signP (V c main_arg1)) := by
  show (cfg1.win 1).cut (grid1.coords t) ((dat1 V c).after 1 t) = _
  rw [after1_1]
  unfold out1_1
  rw [View.canon_unit_zero hz1]
  simp only [View.ld_unit_zero (S := S1000x2048) hz1]
  obtain ⟨e0, e1, e2, e3⟩ := sameTile1 t
  funext j
  show k1_pay1 (fun j => V c main_arg1 (((cfg1.win 0).blk t).view.emb j)) j = signP (V c main_arg1) (((cfg1.win 1).blk t).view.emb j)
  rw [pay1_entry, signP_entry]
  have h0 : ((cfg1.win 0).blk t).view.emb j = ((cfg1.win 1).blk t).view.emb j := by
    funext a; apply Fin.ext
    match a with
    | ⟨0, _⟩ => show win1_0.index t (0 : Fin 2) * 1000 + 1 * (j 0).val = win1_1.index t (0 : Fin 2) * 1000 + 1 * (j 0).val; have hj : (j 0).val < 1000 := (j 0).isLt; omega
    | ⟨1, _⟩ => show win1_0.index t (1 : Fin 2) * 2048 + 1 * (j 1).val = win1_1.index t (1 : Fin 2) * 2048 + 1 * (j 1).val; have hj : (j 1).val < 2048 := (j 1).isLt; omega
  rw [h0]

/-- An index of the array is in point `t`'s output tile iff each coordinate is in the tile's range on its axis. -/
theorem mem_tile1 (t : Fin cfg1.N) (i : S1000x10240.Idx) :
    i ∈ ((cfg1.win 1).blk t).view.set ↔ ∀ a : Fin 2, win1_1.index t a * S1000x2048.size a ≤ (i a).val ∧ (i a).val < win1_1.index t a * S1000x2048.size a + S1000x2048.size a := by
  show i ∈ ((View.whole main_v1).slice (win1_1.rect t)).set ↔ _
  rw [View.set_slice_whole, Rect.mem_set_unit]
  exact Iff.rfl

/-- Every index of the output array is in some point's tile: the tiles fill the array. -/
theorem covered1 (i : S1000x10240.Idx) :
    ∃ t : Fin cfg1.N, (cfg1.win 1).flush t = true ∧ i ∈ ((cfg1.win 1).blk t).view.set := by
  have hi0 : (i 0).val < 1000 := (i 0).isLt
  have hi1 : (i 1).val < 10240 := (i 1).isLt
  obtain ⟨t, ht⟩ := everyTile1 ⟨(i 0).val / 1000, by omega⟩ ⟨(i 1).val / 2048, by omega⟩
  have q0 : win1_1.index t (0 : Fin 2) = (i 0).val / 1000 := congrFun ht 0
  have q1 : win1_1.index t (1 : Fin 2) = (i 1).val / 2048 := congrFun ht 1
  refine ⟨t, flush1_1 t, ?_⟩
  rw [mem_tile1]
  intro a
  match a with
  | ⟨0, _⟩ => show win1_1.index t (0 : Fin 2) * 1000 ≤ (i 0).val ∧ (i 0).val < win1_1.index t (0 : Fin 2) * 1000 + 1000; omega
  | ⟨1, _⟩ => show win1_1.index t (1 : Fin 2) * 2048 ≤ (i 1).val ∧ (i 1).val < win1_1.index t (1 : Fin 2) * 2048 + 2048; omega

/-! ## The output array after the region -/

/-- After the region the output array is the sign map of the input array as the region found it. -/
theorem final1 (c : Dev nD) : (dat1 V c).arrAt 1 cfg1.N = signP (V c main_arg1) :=
  (dat1 V c).arrAt_eq_of_cover 1 (signP (V c main_arg1)) (fun t _ => flushed1_1_eq V c t) covered1

/-! ## At the ideal reals -/

/-- Over the extended reals, where narrowing to bf16 changes nothing, the sign map is the reference program's
    own stage: select (x > 0) 1 (−1), entry by entry, with the same constant words on both sides. -/
theorem signP_eq_ref (x : S1000x10240.Idx → Elt Ideal .f32) :
    signP (F := Ideal) x = Cert.ReferenceIdeal.Read.val_main_v7 (F := Ideal) x := by
  funext i
  rw [signP_entry, Cert.ReferenceIdeal.Read.val_main_v7_apply, Cert.ReferenceIdeal.Read.val_main_v6_apply,
    Cert.ReferenceIdeal.Read.val_main_v5_apply, Cert.ReferenceIdeal.Read.val_main_v4_apply, Cert.ReferenceIdeal.Read.val_main_cst_2_apply,
    Cert.ReferenceIdeal.Read.val_main_call1_v0_apply, Cert.ReferenceIdeal.Read.val_main_cst_3_apply,
    Cert.ReferenceIdeal.Read.val_main_call1_v1_apply, Cert.ReferenceIdeal.Read.val_main_cst_4_apply]
  rfl

end Cert.KernelIdeal.SignP

end
-- ==== Proof.Bridge.lean ====
/-
  The kernel program's result over the extended reals is the reference's.

  The third region leaves in the result array, at every entry (p, q), the dot product over all 10240 depth
  positions of row p of its left operand with row q of its right operand, plus 10240, halved. Its left operand is
  what the first region left: the entrywise sign map of the query; its right operand what the second region left: the
  entrywise sign map of the prototypes. The reference computes the same two sign maps, their dot products by one
  contraction, adds the same 10240 on the other side of the sum and halves: addition of extended reals commutes,
  and nothing else is needed.
-/
import proofs.«172129_j38036230373922_1_alg».proof.Proof.Run
import proofs.«172129_j38036230373922_1_alg».proof.Proof.HamValue
import proofs.«172129_j38036230373922_1_alg».proof.Proof.SignQValue
import proofs.«172129_j38036230373922_1_alg».proof.Proof.SignPValue
import proofs.«172129_j38036230373922_1_alg».proof.Proof.Gen.ReferenceIdeal.Read
import Idealize.ShloMosaic.PureOps.Ideal

noncomputable section

namespace Cert.KernelIdeal.Bridge

open Idealize.ShloMosaic Idealize.ShloMosaic.TcCoe Idealize.SL.Sem
open Cert.KernelIdeal Cert.KernelIdeal.Gen

/-- The Hamming product of the two sign maps is the reference's last stage. -/
theorem ham_sign_eq_ref (x0 : S8192x10240.Idx → Elt Ideal .f32) (x1 : S1000x10240.Idx → Elt Ideal .f32) :
    Ham.hamOut (SignQ.signQ (F := Ideal) x0) (SignP.signP (F := Ideal) x1)
      = Cert.ReferenceIdeal.Read.val_main_v12 (F := Ideal) x0 x1 := by
  funext j
  rw [SignQ.signQ_eq_ref, SignP.signP_eq_ref]
  unfold Ham.hamOut
  rw [Cert.ReferenceIdeal.Read.val_main_v12_apply, Cert.ReferenceIdeal.Read.val_main_v10_apply,
    Cert.ReferenceIdeal.Read.val_main_v9_apply, Cert.ReferenceIdeal.Read.val_main_cst_5_apply,
    Cert.ReferenceIdeal.Read.val_main_v11_apply, Cert.ReferenceIdeal.Read.val_main_cst_6_apply,
    Cert.ReferenceIdeal.Read.val_main_v8_apply]
  show (_ + _) * _ = (_ + _) * _
  rw [add_comm]

/-- The kernel program run at the ideal instance: the result array ends at the reference's last stage of the
    arguments, the arguments unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Cert.ReferenceIdeal.Read.val_main_v12 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Run.run_value (F := Ideal) m ρ)
  rw [Ham.final2, Run.V2_main_v0, Run.V1_main_v0, Run.V2_main_v1, SignQ.final0, SignP.final1, Run.V0_main_arg0, Run.V1_main_arg1]
  exact ham_sign_eq_ref _ _

end Cert.KernelIdeal.Bridge

end
-- ==== Proof.lean ====
/-
  The certificate of the Hamming-similarity kernel against its reference.

  The kernel program sign-binarizes the query and the prototypes in two kernel regions (each entry becomes +1 where
  it is > 0 and −1 otherwise) and, in a third region, accumulates over five depth chunks the products of the two
  sign arrays' rows, adds the depth 10240 and halves: the count of matching sign positions. The reference computes
  the same sign maps, one contraction over the whole depth, and (10240 + dots) · 0.5.

  Frames: each kernel program (at the word-level instance and at the ideal one) runs its three regions to the end
  and no region writes an argument array; the reference is a straight line of host operations. The idealization
  rewrote nothing. Over the extended reals the two results agree entry by entry: the accumulator's five partial
  sums are the one sum over the depth regrouped, and the constant is added on the other side.
-/
import proofs.«172129_j38036230373922_1_alg».proof.Defs
import proofs.«172129_j38036230373922_1_alg».proof.Proof.Gen.Kernel
import proofs.«172129_j38036230373922_1_alg».proof.Proof.Gen.KernelIdeal
import proofs.«172129_j38036230373922_1_alg».proof.Proof.Gen.ReferenceIdeal
import proofs.«172129_j38036230373922_1_alg».proof.Proof.Gen.Pre_finite_inputs
import proofs.«172129_j38036230373922_1_alg».proof.Proof.Gen.ReferenceIdeal.Run
import proofs.«172129_j38036230373922_1_alg».proof.Proof.Gen.ReferenceIdeal.Read
import proofs.«172129_j38036230373922_1_alg».proof.Proof.BitsRun
import proofs.«172129_j38036230373922_1_alg».proof.Proof.Run
import proofs.«172129_j38036230373922_1_alg».proof.Proof.Bridge
import Idealize.ShloMosaic.Adequacy
import Idealize.ShloMosaic.Init

noncomputable section

namespace Cert.Proof

open Idealize.ShloMosaic Idealize.SL.Sem

/-- The word-level kernel program runs to the end and leaves its arguments unchanged. -/
theorem frame_k : @Cert.frame_Kernel Cert.Kernel.Gen.facts Cert.Pre_finite_inputs.Gen.facts :=
  fun m ρ _ => Cert.Kernel.Run.frame (F := Bits) m ρ

/-- So does the idealized kernel program. -/
theorem frame_ki : @Cert.frame_KernelIdeal Cert.KernelIdeal.Gen.facts Cert.Pre_finite_inputs.Gen.facts :=
  fun m ρ _ => Cert.KernelIdeal.Run.frame (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the reference's last stage of the arguments in their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Bridge.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
